-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S32x1024x1024 : Shape := ⟨3, ![32, 1024, 1024]⟩
abbrev S1024x1024 : Shape := ⟨2, ![1024, 1024]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_arg8 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  main_v43

def fn_part1 {F : FTy → Type} [FloatOps F] (main_arg4 : FVec F S32x1024 .f32) (main_arg5 : FVec F S1024x1024 .f32) (main_arg6 : FVec F S1024x1024 .f32) (main_arg7 : FVec F S1024x1024 .f32) (main_arg8 : FVec F S1024x1024 .f32) (main_v13 : IVec S_ 1) (main_v16 : IVec S32x1024x1024 1) : IVec S_ 1 :=
  let main_c_5 : IVec S_ 1 := constantI S_ 1 1#1
  let main_v17 : IVec S_ 1 := (fun x v => Host.reduce IntOp.andi x v reducesTo_S32x1024x1024_S_d0_1_2 h_S_) main_v16 main_c_5
  let main_v18 : IVec S_ 1 := andi main_v13 main_v17
  let main_v19 : FVec F S32x1024 .f32 := Host.absf main_arg4
  let main_cst_6 : FVec F S_ .f32 := constant S_ .f32 0x7F800000#32
  let main_v20 : FVec F S32x1024 .f32 := broadcastInDim S32x1024 ![] bcast_S_S32x1024 main_cst_6
  let main_v21 : IVec S32x1024 1 := cmpf .olt main_v19 main_v20
  let main_c_7 : IVec S_ 1 := constantI S_ 1 1#1
  let main_v22 : IVec S_ 1 := (fun x v => Host.reduce IntOp.andi x v reducesTo_S32x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S32x1024 .f32) (main_arg1 : FVec F S32x1024 .f32) (main_arg2 : FVec F S32x1024x1024 .f32) (main_arg3 : FVec F S32x1024x1024 .f32) (main_arg4 : FVec F S32x1024 .f32) (main_arg5 : FVec F S1024x1024 .f32) (main_arg6 : FVec F S1024x1024 .f32) (main_arg7 : FVec F S1024x1024 .f32) (main_arg8 : FVec F S1024x1024 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S32x1024x1024 .f32 := Host.absf main_arg2
  let main_cst_2 : FVec F S_ .f32 := constant S_ .f32 0x7F800000#32
  let main_v10 : FVec F S32x1024x1024 .f32 := broadcastInDim S32x1024x1024 ![] bcast_S_S32x1024x1024 main_cst_2
  let main_v11 : IVec S32x1024x1024 1 := cmpf .olt main_v9 main_v10
  let main_c_3 : IVec S_ 1 := constantI S_ 1 1#1
  let main_v12 : IVec S_ 1 := (fun x v => Host.reduce IntOp.andi x v reducesTo_S32x1024x1024_S_d0_1_2 h_S_) main_v11 main_c_3
  let main_v13 : IVec S_ 1 := andi main_v8 main_v12
  let main_v14 : FVec F S32x1024x1024 .f32 := Host.absf main_arg3
  let main_cst_4 : FVec F S_ .f32 := constant S_ .f32 0x7F800000#32
  let main_v15 : FVec F S32x1024x1024 .f32 := broadcastInDim S32x1024x1024 ![] bcast_S_S32x1024x1024 main_cst_4
  let main_v16 : IVec S32x1024x1024 1 := cmpf .olt main_v14 main_v15
  fn_part1 (F := F) main_arg4 main_arg5 main_arg6 main_arg7 main_arg8 main_v13 main_v16
-- ==== Kernel.lean ====
abbrev S32x1024 : Shape := ⟨2, ![32, 1024]⟩
abbrev S32x1024x1024 : Shape := ⟨3, ![32, 1024, 1024]⟩
abbrev S1024x1024 : Shape := ⟨2, ![1024, 1024]⟩
abbrev S32x128x128 : Shape := ⟨3, ![32, 128, 128]⟩
abbrev S128x128 : Shape := ⟨2, ![128, 128]⟩
abbrev S32x128 : Shape := ⟨2, ![32, 128]⟩
abbrev S1x128x128 : Shape := ⟨3, ![1, 128, 128]⟩
abbrev S32x1x128 : Shape := ⟨3, ![32, 1, 128]⟩

abbrev nBuf : Space → Nat
  | .hbm => 13
  | .vmem => 29
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024x1024, .f32⟩
  | .hbm, ⟨3, _⟩ => ⟨S32x1024x1024, .f32⟩
  | .hbm, ⟨4, _⟩ => ⟨S32x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S32x1024, .f32⟩
  | .hbm, ⟨10, _⟩ => ⟨S32x1024x1024, .f32⟩
  | .hbm, ⟨11, _⟩ => ⟨S32x1024x1024, .f32⟩
  | .hbm, ⟨12, _⟩ => ⟨S32x1024, .f32⟩
  | .local _ .vmem, ⟨0, _⟩ => ⟨S32x128x128, .f32⟩
  | .local _ .vmem, ⟨1, _⟩ => ⟨S32x128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S32x128, .f32⟩
  | .local _ .vmem, ⟨7, _⟩ => ⟨S32x128, .f32⟩
  | .local _ .vmem, ⟨8, _⟩ => ⟨S32x128x128, .f32⟩
  | .local _ .vmem, ⟨9, _⟩ => ⟨S32x128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S32x128, .f32⟩
  | .local _ .vmem, ⟨15, _⟩ => ⟨S32x128, .f32⟩
  | .local _ .vmem, ⟨16, _⟩ => ⟨S32x128, .f32⟩
  | .local _ .vmem, ⟨17, _⟩ => ⟨S32x128, .f32⟩
  | .local _ .vmem, ⟨18, _⟩ => ⟨S32x128, .f32⟩
  | .local _ .vmem, ⟨19, _⟩ => ⟨S32x128, .f32⟩
  | .local _ .vmem, ⟨20, _⟩ => ⟨S32x128, .f32⟩
  | .local _ .vmem, ⟨21, _⟩ => ⟨S32x128, .f32⟩
  | .local _ .vmem, ⟨22, _⟩ => ⟨S32x128x128, .f32⟩
  | .local _ .vmem, ⟨23, _⟩ => ⟨S32x128x128, .f32⟩
  | .local _ .vmem, ⟨24, _⟩ => ⟨S32x128x128, .f32⟩
  | .local _ .vmem, ⟨25, _⟩ => ⟨S32x128x128, .f32⟩
  | .local _ .vmem, ⟨26, _⟩ => ⟨S32x128, .f32⟩
  | .local _ .vmem, ⟨27, _⟩ => ⟨S32x128, .f32⟩
  | .local _ .vmem, ⟨28, _⟩ => ⟨S32x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_29 : BitVec 32 := 0#32
  let v41 : BitVec 1 := Scalar.cmpi .ne v40 c0_i32_29
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S32x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S32x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

class Facts₀ : Prop where
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128x128_S128x128_0_0 : ∀ a, (![0, 0] : Fin 2 → Nat) a + S128x128.size a ≤ S128x128.size a
  h_S128x128 : 0 < S128x128.numel
  shapeCasts_S128x128_S1x128x128 : S128x128.ShapeCasts S1x128x128
  inb_S32x128x128_S32x128x128_0_0_0 : ∀ a, (![0, 0, 0] : Fin 3 → Nat) a + S32x128x128.size a ≤ S32x128x128.size a
  h_S32x128x128 : 0 < S32x128x128.numel
  broadcasts_S1x128x128_S32x128x128 : S1x128x128.Broadcasts S32x128x128
  shapeCasts_S32x128_S32x1x128 : S32x128.ShapeCasts S32x1x128
  broadcasts_S32x1x128_S32x128x128 : S32x1x128.Broadcasts S32x128x128
  reduces_S32x128x128_S32x128 : S32x128x128.Reduces [2] S32x128
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x128.size a ≤ S32x1024x1024.size a
  hwx0_0 : ∀ i : grid0.Coords, EltTy.bits .f32 = 32 ∨ (Rect.block (s := S32x1024x1024) S32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x1024.size a
  hwx0_1 : ∀ i : grid0.Coords, EltTy.bits .f32 = 32 ∨ (Rect.block (s := S1024x1024) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x1024.size a
  hwx0_2 : ∀ i : grid0.Coords, EltTy.bits .f32 = 32 ∨ (Rect.block (s := S1024x1024) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x1024.size a
  hwx0_3 : ∀ i : grid0.Coords, EltTy.bits .f32 = 32 ∨ (Rect.block (s := S32x1024) S32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128x128.size a ≤ S32x1024x1024.size a
  hwx0_4 : ∀ i : grid0.Coords, EltTy.bits .f32 = 32 ∨ (Rect.block (s := S32x1024x1024) S32x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S1024x1024.size a
  hwx0_5 : ∀ i : grid0.Coords, EltTy.bits .f32 = 32 ∨ (Rect.block (s := S1024x1024) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S1024x1024.size a
  hwx0_6 : ∀ i : grid0.Coords, EltTy.bits .f32 = 32 ∨ (Rect.block (s := S1024x1024) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x1024.size a
  hwx0_7 : ∀ i : grid0.Coords, EltTy.bits .f32 = 32 ∨ (Rect.block (s := S32x1024) S32x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x128.size a ≤ S32x1024.size a
  hwx0_8 : ∀ i : grid0.Coords, EltTy.bits .f32 = 32 ∨ (Rect.block (s := S32x1024) S32x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S32x1024.size a
  hwx0_9 : ∀ i : grid0.Coords, EltTy.bits .f32 = 32 ∨ (Rect.block (s := S32x1024) S32x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x128.size a ≤ S32x1024.size a
  hwx0_10 : ∀ i : grid0.Coords, EltTy.bits .f32 = 32 ∨ (Rect.block (s := S32x1024) S32x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x128x128.size a ≤ S32x1024x1024.size a
  hwx0_11 : ∀ i : grid0.Coords, EltTy.bits .f32 = 32 ∨ (Rect.block (s := S32x1024x1024) S32x128x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S32x128x128.size a ≤ S32x1024x1024.size a
  hwx0_12 : ∀ i : grid0.Coords, EltTy.bits .f32 = 32 ∨ (Rect.block (s := S32x1024x1024) S32x128x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S32x128.size a ≤ S32x1024.size a
  hwx0_13 : ∀ i : grid0.Coords, EltTy.bits .f32 = 32 ∨ (Rect.block (s := S32x1024) S32x128.size (cc0_transform_13 i) (hinb0_13 i)).WholeWords (EltTy.packing .f32)

variable [Facts₀]

abbrev win0_0 : Pipeline.Window sig grid0 :=
  Pipeline.Window.ofSpec (Memref.whole main_arg2) S32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S32x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg1) S32x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg4) S32x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S32x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S32x128x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_2) S32x128x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_3) S32x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun _ => false | 12 => fun _ => false | 13 => fun i => !(k0_cond2 i == 1#1) | ⟨_ + 14, h⟩ => absurd h (Nat.not_lt.2 (Nat.le_add_left _ _))

class Facts : Prop extends Facts₀ where

variable [Facts]
-- ==== ReferenceIdeal.lean ====
abbrev S32x1024 : Shape := ⟨2, ![32, 1024]⟩
abbrev S32x1024x1024 : Shape := ⟨3, ![32, 1024, 1024]⟩
abbrev S1024x1024 : Shape := ⟨2, ![1024, 1024]⟩
abbrev S1x1024x1024 : Shape := ⟨3, ![1, 1024, 1024]⟩
abbrev S32x1x1024 : Shape := ⟨3, ![32, 1, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024x1024, .f32⟩
  | .hbm, ⟨3, _⟩ => ⟨S32x1024x1024, .f32⟩
  | .hbm, ⟨4, _⟩ => ⟨S32x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S32x1024x1024, .f32⟩
  | .hbm, ⟨11, _⟩ => ⟨S32x1024x1024, .f32⟩
  | .hbm, ⟨12, _⟩ => ⟨S1x1024x1024, .f32⟩
  | .hbm, ⟨13, _⟩ => ⟨S32x1x1024, .f32⟩
  | .hbm, ⟨14, _⟩ => ⟨S32x1024x1024, .f32⟩
  | .hbm, ⟨15, _⟩ => ⟨S32x1024x1024, .f32⟩
  | .hbm, ⟨16, _⟩ => ⟨S32x1024x1024, .f32⟩
  | .hbm, ⟨17, _⟩ => ⟨S32x1024x1024, .f32⟩
  | .hbm, ⟨18, _⟩ => ⟨S_, .f32⟩
  | .hbm, ⟨19, _⟩ => ⟨S32x1024, .f32⟩
  | .hbm, ⟨20, _⟩ => ⟨S1x1024x1024, .f32⟩
  | .hbm, ⟨21, _⟩ => ⟨S32x1024x1024, .f32⟩
  | .hbm, ⟨22, _⟩ => ⟨S32x1024x1024, .f32⟩
  | .hbm, ⟨23, _⟩ => ⟨S1x1024x1024, .f32⟩
  | .hbm, ⟨24, _⟩ => ⟨S32x1x1024, .f32⟩
  | .hbm, ⟨25, _⟩ => ⟨S32x1024x1024, .f32⟩
  | .hbm, ⟨26, _⟩ => ⟨S32x1024x1024, .f32⟩
  | .hbm, ⟨27, _⟩ => ⟨S32x1024x1024, .f32⟩
  | .hbm, ⟨28, _⟩ => ⟨S32x1024x1024, .f32⟩
  | .hbm, ⟨29, _⟩ => ⟨S_, .f32⟩
  | .hbm, ⟨30, _⟩ => ⟨S32x1024, .f32⟩
  | .hbm, ⟨31, _⟩ => ⟨S_, .f32⟩
  | .hbm, ⟨32, _⟩ => ⟨S32x1024, .f32⟩
  | .hbm, ⟨33, _⟩ => ⟨S32x1024, .f32⟩
  | .hbm, ⟨34, _⟩ => ⟨S_, .f32⟩
  | .hbm, ⟨35, _⟩ => ⟨S32x1024, .f32⟩
  | .hbm, ⟨36, _⟩ => ⟨S32x1024, .f32⟩
  | .hbm, ⟨37, _⟩ => ⟨S32x1024, .f32⟩
  | .hbm, ⟨38, _⟩ => ⟨S32x1024, .f32⟩
  | .hbm, ⟨39, _⟩ => ⟨S32x1024, .f32⟩
  | .hbm, ⟨40, _⟩ => ⟨S_, .f32⟩
  | .hbm, ⟨41, _⟩ => ⟨S32x1024, .f32⟩
  | .hbm, ⟨42, _⟩ => ⟨S32x1024, .f32⟩
  | .hbm, ⟨43, _⟩ => ⟨S_, .f32⟩
  | .hbm, ⟨44, _⟩ => ⟨S32x1024, .f32⟩
  | .hbm, ⟨45, _⟩ => ⟨S32x1024, .i1⟩
  | .hbm, ⟨46, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)

variable [Facts₀]

class Facts : Prop extends Facts₀ where

variable [Facts]
-- ==== Proof.KB.Common.lean ====
/-
  What the three runs of the synapse kernel's body share. The grid is 8 x 8: point t has row block t / 8 and
  reduction step k = t % 8. The body zeroes its accumulator at k = 0, adds the two lane sums of the step's
  trace blocks at every k, and at k = 7 writes the refractory current and the spike. So a point is in one of
  three cases: first (k = 0), middle (0 < k < 7), last (k = 7). Here: the contents of the arrays as the kernel's
  region finds them, the two branch conditions decided over the 64 points, and where the two outputs written
  only at k = 7 are idle and not written back.
-/
import proofs.«125167_j59399397704147_1_alg».proof.Proof.Gen.Kernel.Launch
import proofs.«125167_j59399397704147_1_alg».proof.Proof.Gen.Kernel.Skeleton
import proofs.«125167_j59399397704147_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Syn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The program has no host operation before its one kernel region: the region finds every array at its launch
    contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions -/

/-- The accumulator is zeroed: the reduction step is the first. -/
abbrev condFirst (i : grid0.Coords) : Prop :=
  (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- The epilogue runs: the reduction step is the last. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem idle_z : ∀ t : Fin cfg0.N, ¬condLast (grid0.coords t) → cfg0.idle 10 (grid0.coords t) = true := by decide +kernel
theorem noFlush_z : ∀ t : Fin cfg0.N, ¬condLast (grid0.coords t) → (cfg0.win 10).flush t = false := by decide +kernel
theorem live_z : ∀ t : Fin cfg0.N, condLast (grid0.coords t) → cfg0.idle 10 (grid0.coords t) = false := by decide +kernel
theorem idle_ir : ∀ t : Fin cfg0.N, ¬condLast (grid0.coords t) → cfg0.idle 13 (grid0.coords t) = true := by decide +kernel
theorem noFlush_ir : ∀ t : Fin cfg0.N, ¬condLast (grid0.coords t) → (cfg0.win 13).flush t = false := by decide +kernel
theorem live_ir : ∀ t : Fin cfg0.N, condLast (grid0.coords t) → cfg0.idle 13 (grid0.coords t) = false := by decide +kernel

end Cert.Kernel.Syn

end
-- ==== Proof.KB.RunMid.lean ====
/-
  The body's run at a middle point (0 < k < 7): neither branch is taken. It loads the eight trace-side input
  blocks, stores the two trace blocks whole, and adds their lane sums to the accumulator; the spike and
  refractory-current buffers are handed back untouched. The pieces each written buffer ends with are found by
  running the body.
-/
import proofs.«125167_j59399397704147_1_alg».proof.Proof.KB.Common

set_option maxRecDepth 16384

noncomputable section

namespace Cert.Kernel.Syn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : ¬condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32) :
    Σ' (L11 : List (View.Piece (Elt F) S32x128x128 .f32)) (L12 : List (View.Piece (Elt F) S32x128x128 .f32)), { LS : List (View.Piece (Elt F) S32x128 .f32) //
      ∀ (xi10 xi13 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d) ∗ (∃ d, owns (c : Thread nD τ) arg14 fullShare d) ∗ owns (c : Thread nD τ) arg15 fullShare xi13 ∗ owns (c : Thread nD τ) arg16 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ owns (c : Thread nD τ) arg15 fullShare xi13 ∗ (∃ f, arg16.view.loc (c : Thread nD τ) ↦[arg16.view.set]{fullShare} arg16.view.writes (Elt F) f LS)) -∗ K ⟨⟩))
          ⊢ wp frame (wpE (defs₀ (F := F)) Variants.none c none) E (cc0__het_syn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun xi10 xi13 E K => ?run⟩
  case run =>
    simp only [cc0__het_syn_kernel_eq_skeleton]; unfold cc0__het_syn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hf9; obtain rfl := harg12.eq_unread hf10; obtain rfl := harg15.eq_unread hf13
    obtain rfl := harg16.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]
    · iexists _; isplitr; · ipureintro; exact harg15.read_unread _
      iexact H13
    iexists _; iexact HS

end Cert.Kernel.Syn

end
-- ==== Proof.KB.RunFirst.lean ====
/-
  The body's run at a first point (k = 0): the accumulator is zeroed, whatever it held, before the step's two
  lane sums are added to it; otherwise as at a middle point.
-/
import proofs.«125167_j59399397704147_1_alg».proof.Proof.KB.RunMid

set_option maxRecDepth 16384

noncomputable section

namespace Cert.Kernel.Syn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : condFirst i) (hc1 : ¬condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) :
    Σ' (L11 : List (View.Piece (Elt F) S32x128x128 .f32)) (L12 : List (View.Piece (Elt F) S32x128x128 .f32)), { LS : List (View.Piece (Elt F) S32x128 .f32) //
      ∀ (xi10 xi13 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d) ∗ (∃ d, owns (c : Thread nD τ) arg14 fullShare d) ∗ owns (c : Thread nD τ) arg15 fullShare xi13 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ owns (c : Thread nD τ) arg15 fullShare xi13 ∗ (∃ f, arg16.view.loc (c : Thread nD τ) ↦[arg16.view.set]{fullShare} arg16.view.writes (Elt F) f LS)) -∗ K ⟨⟩))
          ⊢ wp frame (wpE (defs₀ (F := F)) Variants.none c none) E (cc0__het_syn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun xi10 xi13 E K => ?run⟩
  case run =>
    simp only [cc0__het_syn_kernel_eq_skeleton]; unfold cc0__het_syn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hf9; obtain rfl := harg12.eq_unread hf10; obtain rfl := harg15.eq_unread hf13
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]
    · iexists _; isplitr; · ipureintro; exact harg15.read_unread _
      iexact H13
    iexists _; iexact HS

end Cert.Kernel.Syn

end
-- ==== Proof.KB.RunLast.lean ====
/-
  The body's run at a last point (k = 7): after the step's two lane sums are added to the accumulator, the
  refractory current is computed from its two input blocks and stored whole, and the spike, the sign test of
  accumulator minus refractory current minus threshold, is stored whole.
-/
import proofs.«125167_j59399397704147_1_alg».proof.Proof.KB.RunFirst

set_option maxRecDepth 16384

noncomputable section

namespace Cert.Kernel.Syn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32) :
    Σ' (L10 : List (View.Piece (Elt F) S32x128 .f32)) (L11 : List (View.Piece (Elt F) S32x128x128 .f32)) (L12 : List (View.Piece (Elt F) S32x128x128 .f32)) (L13 : List (View.Piece (Elt F) S32x128 .f32)), { LS : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS)) -∗ K ⟨⟩))
          ⊢ wp frame (wpE (defs₀ (F := F)) Variants.none c none) E (cc0__het_syn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0__het_syn_kernel_eq_skeleton]; unfold cc0__het_syn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hf9; obtain rfl := harg16.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    iexists _; iexact HS

end Cert.Kernel.Syn

end
-- ==== Proof.KB.Pieces.lean ====
/-
  What each buffer the body wrote holds, read back, in each of the three cases: the run finds the stores as
  pieces; every store here is of a whole buffer, so the last store into a buffer is what it holds, and the loads
  that feed it read the inputs' contents. The trace buffers hold the step's trace blocks; the accumulator holds
  what it found (zero at a first step) plus the two lane sums; at a last step the refractory-current buffer holds
  decay * hIr + one * hz and the spike buffer the sign test over the accumulator just written.
-/
import proofs.«125167_j59399397704147_1_alg».proof.Proof.KB.RunLast
import Idealize.ShloMosaic.Lib.Pipeline.Value

set_option maxRecDepth 16384

noncomputable section

namespace Cert.Kernel.Syn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz2 : (![0, 0] : Fin 2 → Nat) = fun _ => 0 := funext fun a => by fin_cases a <;> rfl

/-! ## A middle step -/

/-- The input-path trace buffer holds the step's input-path trace block. -/
theorem mid_L11 (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : ¬condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32)
    (v : View sig .tc .vmem S32x128x128 .f32) (f : v.ty.Contents (Elt F)) :
    v.read (Elt F) (v.writes (Elt F) f (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs).1) = k0_pay5 x1 x0 x2 x3 := by
  refine (View.read_writes_eq_canon v f _ (View.cover_of_tiledL _ S32x128x128.size (by sl_kernel_rfl))).trans ?_
  unfold runMid
  dsimp only
  sl_unfold_words
  rw [View.canon_unit_zero hz3]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-- The recurrent-path trace buffer holds the step's recurrent-path trace block. -/
theorem mid_L12 (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : ¬condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32)
    (v : View sig .tc .vmem S32x128x128 .f32) (f : v.ty.Contents (Elt F)) :
    v.read (Elt F) (v.writes (Elt F) f (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs).2.1) = k0_pay7 x5 x4 x6 x7 := by
  refine (View.read_writes_eq_canon v f _ (View.cover_of_tiledL _ S32x128x128.size (by sl_kernel_rfl))).trans ?_
  unfold runMid
  dsimp only
  sl_unfold_words
  rw [View.canon_unit_zero hz3]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-- The accumulator holds what it found plus the step's two lane sums. -/
theorem mid_LS (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : ¬condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32)
    (v : View sig .tc .vmem S32x128 .f32) (f : v.ty.Contents (Elt F)) :
    v.read (Elt F) (v.writes (Elt F) f (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs).2.2.1) = (k0_pay1 (k0_pay6 x1 x0 x2 x3) (k0_pay7 x5 x4 x6 x7) xs) := by
  refine (View.read_writes_eq_canon v f _ (View.cover_of_tiledL _ S32x128.size (by sl_kernel_rfl))).trans ?_
  unfold runMid
  dsimp only
  sl_unfold_words
  rw [View.canon_unit_zero hz2]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-! ## A first step -/

/-- The input-path trace buffer holds the step's input-path trace block. -/
theorem first_L11 (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : condFirst i) (hc1 : ¬condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32)
    (v : View sig .tc .vmem S32x128x128 .f32) (f : v.ty.Contents (Elt F)) :
    v.read (Elt F) (v.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).1) = k0_pay5 x1 x0 x2 x3 := by
  refine (View.read_writes_eq_canon v f _ (View.cover_of_tiledL _ S32x128x128.size (by sl_kernel_rfl))).trans ?_
  unfold runFirst
  dsimp only
  sl_unfold_words
  rw [View.canon_unit_zero hz3]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-- The recurrent-path trace buffer holds the step's recurrent-path trace block. -/
theorem first_L12 (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : condFirst i) (hc1 : ¬condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32)
    (v : View sig .tc .vmem S32x128x128 .f32) (f : v.ty.Contents (Elt F)) :
    v.read (Elt F) (v.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).2.1) = k0_pay7 x5 x4 x6 x7 := by
  refine (View.read_writes_eq_canon v f _ (View.cover_of_tiledL _ S32x128x128.size (by sl_kernel_rfl))).trans ?_
  unfold runFirst
  dsimp only
  sl_unfold_words
  rw [View.canon_unit_zero hz3]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-- The accumulator holds zero plus the step's two lane sums: the zeroing store is covered by the update. -/
theorem first_LS (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : condFirst i) (hc1 : ¬condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32)
    (v : View sig .tc .vmem S32x128 .f32) (f : v.ty.Contents (Elt F)) :
    v.read (Elt F) (v.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).2.2.1) = (k0_pay1 (k0_pay6 x1 x0 x2 x3) (k0_pay7 x5 x4 x6 x7) (k0_pay4 (F := F))) := by
  refine (View.read_writes_eq_canon v f _ (View.cover_of_tiledL _ S32x128.size (by sl_kernel_rfl))).trans ?_
  unfold runFirst
  dsimp only
  sl_unfold_words
  rw [View.canon_cons_unit_zero (S := S32x128) hz2]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-! ## A last step -/

/-- The input-path trace buffer holds the step's input-path trace block. -/
theorem last_L11 (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32)
    (v : View sig .tc .vmem S32x128x128 .f32) (f : v.ty.Contents (Elt F)) :
    v.read (Elt F) (v.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs).2.1) = k0_pay5 x1 x0 x2 x3 := by
  refine (View.read_writes_eq_canon v f _ (View.cover_of_tiledL _ S32x128x128.size (by sl_kernel_rfl))).trans ?_
  unfold runLast
  dsimp only
  sl_unfold_words
  rw [View.canon_unit_zero hz3]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-- The recurrent-path trace buffer holds the step's recurrent-path trace block. -/
theorem last_L12 (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32)
    (v : View sig .tc .vmem S32x128x128 .f32) (f : v.ty.Contents (Elt F)) :
    v.read (Elt F) (v.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs).2.2.1) = k0_pay7 x5 x4 x6 x7 := by
  refine (View.read_writes_eq_canon v f _ (View.cover_of_tiledL _ S32x128x128.size (by sl_kernel_rfl))).trans ?_
  unfold runLast
  dsimp only
  sl_unfold_words
  rw [View.canon_unit_zero hz3]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-- The accumulator holds what it found plus the step's two lane sums. -/
theorem last_LS (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32)
    (v : View sig .tc .vmem S32x128 .f32) (f : v.ty.Contents (Elt F)) :
    v.read (Elt F) (v.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs).2.2.2.2.1) = (k0_pay1 (k0_pay6 x1 x0 x2 x3) (k0_pay7 x5 x4 x6 x7) xs) := by
  refine (View.read_writes_eq_canon v f _ (View.cover_of_tiledL _ S32x128.size (by sl_kernel_rfl))).trans ?_
  unfold runLast
  dsimp only
  sl_unfold_words
  rw [View.canon_unit_zero hz2]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-- The refractory-current buffer holds the row block's refractory current. -/
theorem last_L13 (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32)
    (v : View sig .tc .vmem S32x128 .f32) (f : v.ty.Contents (Elt F)) :
    v.read (Elt F) (v.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs).2.2.2.1) = k0_pay2 x9 x8 := by
  refine (View.read_writes_eq_canon v f _ (View.cover_of_tiledL _ S32x128.size (by sl_kernel_rfl))).trans ?_
  unfold runLast
  dsimp only
  sl_unfold_words
  rw [View.canon_unit_zero hz2]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-- The spike buffer holds the sign test over the accumulator as this step leaves it. -/
theorem last_L10 (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32)
    (v : View sig .tc .vmem S32x128 .f32) (f : v.ty.Contents (Elt F)) :
    v.read (Elt F) (v.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs).1) = k0_pay3 x9 x8 (k0_pay1 (k0_pay6 x1 x0 x2 x3) (k0_pay7 x5 x4 x6 x7) xs) := by
  refine (View.read_writes_eq_canon v f _ (View.cover_of_tiledL _ S32x128.size (by sl_kernel_rfl))).trans ?_
  unfold runLast
  dsimp only
  sl_unfold_words
  rw [View.canon_unit_zero hz2]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

end Cert.Kernel.Syn

end
-- ==== Proof.KB.Data.lean ====
/-
  The proof data of the synapse kernel's pipeline: what every staging buffer holds after the body at every point,
  in closed form over the input blocks.

  At point t (row block t / 8, step k = t % 8) the body leaves
    * each input's buffer at its block;
    * the two trace outputs' buffers at the step's trace blocks  rho * h + w * s  (stored at every point);
    * the accumulator at  acc(t) = (zero if k = 0, else acc(t - 1)) + (lane sum of the input-path trace block +
      lane sum of the recurrent-path trace block);
    * at k = 7 the refractory-current buffer at  decay * hIr + one * hz  and the spike buffer at the sign test
      of  acc(t) - refractory current - threshold; at the other steps those two buffers are untouched.
  The previous spikes hz are read through two windows (by reduction step for the recurrent drive, by row block
  for the refractory current); the two windows hold the array at the two halves of its share.
-/
import proofs.«125167_j59399397704147_1_alg».proof.Proof.KB.Common

set_option maxRecDepth 16384

noncomputable section

namespace Cert.Kernel.Syn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The input blocks at a point, at their literal types -/

abbrev bHin (c : Dev nD) (t : Fin cfg0.N) : Vec F S32x128x128 .f32 := iblk m c 0 t
abbrev bRhoIn (c : Dev nD) (t : Fin cfg0.N) : Vec F S128x128 .f32 := iblk m c 1 t
abbrev bWIn (c : Dev nD) (t : Fin cfg0.N) : Vec F S128x128 .f32 := iblk m c 2 t
abbrev bX (c : Dev nD) (t : Fin cfg0.N) : Vec F S32x128 .f32 := iblk m c 3 t
abbrev bHrec (c : Dev nD) (t : Fin cfg0.N) : Vec F S32x128x128 .f32 := iblk m c 4 t
abbrev bRhoRec (c : Dev nD) (t : Fin cfg0.N) : Vec F S128x128 .f32 := iblk m c 5 t
abbrev bWRec (c : Dev nD) (t : Fin cfg0.N) : Vec F S128x128 .f32 := iblk m c 6 t
abbrev bHzK (c : Dev nD) (t : Fin cfg0.N) : Vec F S32x128 .f32 := iblk m c 7 t
abbrev bHzI (c : Dev nD) (t : Fin cfg0.N) : Vec F S32x128 .f32 := iblk m c 8 t
abbrev bHIr (c : Dev nD) (t : Fin cfg0.N) : Vec F S32x128 .f32 := iblk m c 9 t

/-! ## What the body computes at a point -/

/-- The step's input-path trace block. -/
def traceIn (c : Dev nD) (t : Fin cfg0.N) : Vec F S32x128x128 .f32 :=
  k0_pay5 (bRhoIn m c t) (bHin m c t) (bWIn m c t) (bX m c t)
/-- Its lane sums. -/
def laneIn (c : Dev nD) (t : Fin cfg0.N) : Vec F S32x128 .f32 :=
  k0_pay6 (bRhoIn m c t) (bHin m c t) (bWIn m c t) (bX m c t)
/-- The step's recurrent-path trace block. -/
def traceRec (c : Dev nD) (t : Fin cfg0.N) : Vec F S32x128x128 .f32 :=
  k0_pay7 (bRhoRec m c t) (bHrec m c t) (bWRec m c t) (bHzK m c t)

/-- The accumulator after the body at position n: over zero at a first step, over what the point before left
    otherwise. -/
def accAt (c : Dev nD) : (n : ℕ) → n < cfg0.N → Vec F S32x128 .f32
  | 0, hn => k0_pay1 (laneIn m c ⟨0, hn⟩) (traceRec m c ⟨0, hn⟩) (k0_pay4 (F := F))
  | n + 1, hn => k0_pay1 (laneIn m c ⟨n + 1, hn⟩) (traceRec m c ⟨n + 1, hn⟩)
      (if (n + 1) % 8 = 0 then k0_pay4 (F := F) else accAt c n (Nat.lt_of_succ_lt hn))

theorem accAt_first (c : Dev nD) (t : Fin cfg0.N) (h : t.val % 8 = 0) :
    accAt m c t.val t.isLt = k0_pay1 (laneIn m c t) (traceRec m c t) (k0_pay4 (F := F)) := by
  obtain ⟨n, hn⟩ := t
  cases n with
  | zero => rfl
  | succ n => exact congrArg (k0_pay1 _ _) (if_pos h)

theorem accAt_later (c : Dev nD) (t : Fin cfg0.N) (h : ¬t.val % 8 = 0) :
    accAt m c t.val t.isLt = k0_pay1 (laneIn m c t) (traceRec m c t)
      (accAt m c (t.val - 1) (Nat.lt_of_le_of_lt (Nat.sub_le _ _) t.isLt)) := by
  obtain ⟨n, hn⟩ := t
  cases n with
  | zero => exact absurd (Nat.zero_mod _) h
  | succ n => exact congrArg (k0_pay1 _ _) (if_neg h)

/-- The refractory current of the point's row block. -/
def irAt (c : Dev nD) (t : Fin cfg0.N) : Vec F S32x128 .f32 := k0_pay2 (bHIr m c t) (bHzI m c t)
/-- The spike of the point's row block, from the accumulator as the point leaves it. -/
def zAt (c : Dev nD) (t : Fin cfg0.N) : Vec F S32x128 .f32 :=
  k0_pay3 (bHIr m c t) (bHzI m c t) (accAt m c t.val t.isLt)

/-! ## The invariant between points: the accumulator -/

/-- The accumulator, a whole scoped buffer of the kernel's own. -/
abbrev scM : Memref sig .tc .vmem S32x128 .f32 := Memref.whole cc0_scratch0

/-- Before the first point the accumulator holds anything; before any later point, what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAt m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as the region finds them; after the body each input's buffer at its block and each output's at
    the value above; the accumulator carried in the invariant; nothing owed; every array at the full share but
    the previous spikes', which two input windows read, at its two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => zAt m c t
    | ⟨11, _⟩ => traceIn m c t
    | ⟨12, _⟩ => traceRec m c t
    | ⟨13, _⟩ => irAt m c t
  Φ t := PhiS m c t.val (Nat.le_of_lt_succ t.isLt)
  q w := match w with
    | ⟨0, _⟩ => fullShare
    | ⟨1, _⟩ => fullShare
    | ⟨2, _⟩ => fullShare
    | ⟨3, _⟩ => fullShare
    | ⟨4, _⟩ => fullShare
    | ⟨5, _⟩ => fullShare
    | ⟨6, _⟩ => fullShare
    | ⟨7, _⟩ => fullShare.left
    | ⟨8, _⟩ => fullShare.right
    | ⟨9, _⟩ => fullShare
    | ⟨10, _⟩ => fullShare
    | ⟨11, _⟩ => fullShare
    | ⟨12, _⟩ => fullShare
    | ⟨13, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after_in (c : Dev nD) (t : Fin cfg0.N) :
    (dats m 0 c).after 0 t = iblk m c 0 t ∧ (dats m 0 c).after 1 t = iblk m c 1 t ∧ (dats m 0 c).after 2 t = iblk m c 2 t
    ∧ (dats m 0 c).after 3 t = iblk m c 3 t ∧ (dats m 0 c).after 4 t = iblk m c 4 t ∧ (dats m 0 c).after 5 t = iblk m c 5 t
    ∧ (dats m 0 c).after 6 t = iblk m c 6 t ∧ (dats m 0 c).after 7 t = iblk m c 7 t ∧ (dats m 0 c).after 8 t = iblk m c 8 t
    ∧ (dats m 0 c).after 9 t = iblk m c 9 t := by
  dsimp only [dats]; exact ⟨rfl, rfl, rfl, rfl, rfl, rfl, rfl, rfl, rfl, rfl⟩
theorem after_z (c : Dev nD) (t : Fin cfg0.N) : (dats m 0 c).after 10 t = zAt m c t := by dsimp only [dats]
theorem after_traceIn (c : Dev nD) (t : Fin cfg0.N) : (dats m 0 c).after 11 t = traceIn m c t := by dsimp only [dats]
theorem after_traceRec (c : Dev nD) (t : Fin cfg0.N) : (dats m 0 c).after 12 t = traceRec m c t := by dsimp only [dats]
theorem after_ir (c : Dev nD) (t : Fin cfg0.N) : (dats m 0 c).after 13 t = irAt m c t := by dsimp only [dats]

end Cert.Kernel.Syn

end
-- ==== Proof.KB.Body.lean ====
/-
  The body obligation of the synapse kernel's pipeline: at every point, from the accumulator as the point before
  left it and every window's buffer at what it then holds, the body runs to the accumulator and the buffers at
  the proof data's contents. Every input's buffer holds its block, fetched at the point or not (an input not
  fetched has not moved to another block). The point's step (first, middle, last) selects the run; each buffer
  the run wrote holds, read back, the value the proof data names; the spike and refractory-current buffers are
  handed back as found except at a last step.
-/
import proofs.«125167_j59399397704147_1_alg».proof.Proof.KB.Pieces
import proofs.«125167_j59399397704147_1_alg».proof.Proof.KB.Data

set_option maxRecDepth 16384

noncomputable section

namespace Cert.Kernel.Syn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Each window's current staging buffer at a point -/

abbrev ms0 (t : Fin cfg0.N) : Memref sig .tc .vmem S32x128x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S32x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S32x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S32x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S32x128x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S32x128x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S32x128 .f32 := win0_13.stage (cfg0.slots t 13)
abbrev hs13 (t : Fin cfg0.N) : (ms13 t).IsWhole := hstage0_13 ((cfg0.slots t 13).cast nbuf0_13)

/-! ## The inputs' buffers hold their blocks -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)

/-- Whatever the invariant says of the accumulator, the accumulator is there at some contents. -/
theorem PhiS_any (c : Dev nD) (n : ℕ) (h : n ≤ cfg0.N) :
    PhiS m c n h ⊢ iprop(∃ d, owns (c : Thread nD τ) scM fullShare d) := by
  cases n with
  | zero =>
    rw [PhiS_zero m c 0 h rfl, scopedRest0_eq]
    simp only [scM, owns_whole]
    exact Idealize.SL.BI.Entails.refl _
  | succ n =>
    rw [PhiS_succ]
    iintro H; iexists _; iexact H

/-! ## The obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt N_0
  rw [show (dats m 0 c).leavesExact 0 t = owns (c : Thread nD τ) (ms0 t) fullShare ((dats m 0 c).after 0 t) from by
    unfold Dat.leavesExact; rw [show cfg0.idle 0 (grid0.coords t) = false from rfl], after_0]
  rw [show (dats m 0 c).leavesExact 1 t = owns (c : Thread nD τ) (ms1 t) fullShare ((dats m 0 c).after 1 t) from by
    unfold Dat.leavesExact; rw [show cfg0.idle 1 (grid0.coords t) = false from rfl], after_1]
  rw [show (dats m 0 c).leavesExact 2 t = owns (c : Thread nD τ) (ms2 t) fullShare ((dats m 0 c).after 2 t) from by
    unfold Dat.leavesExact; rw [show cfg0.idle 2 (grid0.coords t) = false from rfl], after_2]
  rw [show (dats m 0 c).leavesExact 3 t = owns (c : Thread nD τ) (ms3 t) fullShare ((dats m 0 c).after 3 t) from by
    unfold Dat.leavesExact; rw [show cfg0.idle 3 (grid0.coords t) = false from rfl], after_3]
  rw [show (dats m 0 c).leavesExact 4 t = owns (c : Thread nD τ) (ms4 t) fullShare ((dats m 0 c).after 4 t) from by
    unfold Dat.leavesExact; rw [show cfg0.idle 4 (grid0.coords t) = false from rfl], after_4]
  rw [show (dats m 0 c).leavesExact 5 t = owns (c : Thread nD τ) (ms5 t) fullShare ((dats m 0 c).after 5 t) from by
    unfold Dat.leavesExact; rw [show cfg0.idle 5 (grid0.coords t) = false from rfl], after_5]
  rw [show (dats m 0 c).leavesExact 6 t = owns (c : Thread nD τ) (ms6 t) fullShare ((dats m 0 c).after 6 t) from by
    unfold Dat.leavesExact; rw [show cfg0.idle 6 (grid0.coords t) = false from rfl], after_6]
  rw [show (dats m 0 c).leavesExact 7 t = owns (c : Thread nD τ) (ms7 t) fullShare ((dats m 0 c).after 7 t) from by
    unfold Dat.leavesExact; rw [show cfg0.idle 7 (grid0.coords t) = false from rfl], after_7]
  rw [show (dats m 0 c).leavesExact 8 t = owns (c : Thread nD τ) (ms8 t) fullShare ((dats m 0 c).after 8 t) from by
    unfold Dat.leavesExact; rw [show cfg0.idle 8 (grid0.coords t) = false from rfl], after_8]
  rw [show (dats m 0 c).leavesExact 9 t = owns (c : Thread nD τ) (ms9 t) fullShare ((dats m 0 c).after 9 t) from by
    unfold Dat.leavesExact; rw [show cfg0.idle 9 (grid0.coords t) = false from rfl], after_9]
  rw [show (dats m 0 c).leavesExact 11 t = owns (c : Thread nD τ) (ms11 t) fullShare ((dats m 0 c).after 11 t) from by
    unfold Dat.leavesExact; rw [show cfg0.idle 11 (grid0.coords t) = false from rfl], after_traceIn]
  rw [show (dats m 0 c).leavesExact 12 t = owns (c : Thread nD τ) (ms12 t) fullShare ((dats m 0 c).after 12 t) from by
    unfold Dat.leavesExact; rw [show cfg0.idle 12 (grid0.coords t) = false from rfl], after_traceRec]
  by_cases h0 : t.val % 8 = 0
  · -- a first step
    have hc0 : condFirst (grid0.coords t) := (hcondFirst t).mpr h0
    have hc1 : ¬condLast (grid0.coords t) := fun h => by have := (hcondLast t).mp h; omega
    rw [Dat.leavesExact_idle (dats m 0 c) 10 t (idle_z t hc1) (noFlush_z t hc1),
      Dat.leavesExact_idle (dats m 0 c) 13 t (idle_ir t hc1) (noFlush_ir t hc1)]
    rw [accAt_first m c t h0]
    unfold traceIn traceRec laneIn
    rw [Phi_castSucc]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    ihave HS := PhiS_any m c _ _ $$ HΦ
    iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    isplitl [HS]; · iexact HS
    iintro ⟨H0, H1, H2, H3, H4, H5, H6, H7, H8, H9, H10, ⟨%e11, H11⟩, ⟨%e12, H12⟩, H13, ⟨%es, HS⟩⟩
    isplitl [HS]
    · unfold owns; iexists _; isplitr
      swap; · iexact HS
      ipureintro; exact first_LS c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]
    · unfold owns; iexists _; isplitr
      swap; · iexact H11
      ipureintro; exact first_L11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _
    isplitl [H12]
    · unfold owns; iexists _; isplitr
      swap; · iexact H12
      ipureintro; exact first_L12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _
    iexists _; iexact H13
  · have hc0 : ¬condFirst (grid0.coords t) := fun h => h0 ((hcondFirst t).mp h)
    by_cases h1 : t.val % 8 = 7
    · -- a last step
      have hc1 : condLast (grid0.coords t) := (hcondLast t).mpr h1
      rw [show (dats m 0 c).leavesExact 10 t = owns (c : Thread nD τ) (ms10 t) fullShare ((dats m 0 c).after 10 t) from by
        unfold Dat.leavesExact; rw [live_z t hc1], after_z]
      rw [show (dats m 0 c).leavesExact 13 t = owns (c : Thread nD τ) (ms13 t) fullShare ((dats m 0 c).after 13 t) from by
        unfold Dat.leavesExact; rw [live_ir t hc1], after_ir]
      unfold zAt irAt
      rw [accAt_later m c t h0]
      unfold traceIn traceRec laneIn
      have hz : t.val ≠ 0 := by omega
      rw [Phi_castSucc, PhiS_pos m c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [HΦ]; · iexact HΦ
      iintro ⟨H0, H1, H2, H3, H4, H5, H6, H7, H8, H9, ⟨%e10, H10⟩, ⟨%e11, H11⟩, ⟨%e12, H12⟩, ⟨%e13, H13⟩, ⟨%es, HS⟩⟩
      isplitl [HS]
      · unfold owns; iexists _; isplitr
        swap; · iexact HS
        ipureintro; exact last_LS c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _ _
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact last_L10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _ _
      isplitl [H11]
      · unfold owns; iexists _; isplitr
        swap; · iexact H11
        ipureintro; exact last_L11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _ _
      isplitl [H12]
      · unfold owns; iexists _; isplitr
        swap; · iexact H12
        ipureintro; exact last_L12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _ _
      unfold owns; iexists _; isplitr
      swap; · iexact H13
      ipureintro; exact last_L13 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _ _
    · -- a middle step
      have hc1 : ¬condLast (grid0.coords t) := fun h => h1 ((hcondLast t).mp h)
      rw [Dat.leavesExact_idle (dats m 0 c) 10 t (idle_z t hc1) (noFlush_z t hc1),
        Dat.leavesExact_idle (dats m 0 c) 13 t (idle_ir t hc1) (noFlush_ir t hc1)]
      rw [accAt_later m c t h0]
      unfold traceIn traceRec laneIn
      have hz : t.val ≠ 0 := by omega
      rw [Phi_castSucc, PhiS_pos m c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexact H13
      isplitl [HΦ]; · iexact HΦ
      iintro ⟨H0, H1, H2, H3, H4, H5, H6, H7, H8, H9, H10, ⟨%e11, H11⟩, ⟨%e12, H12⟩, H13, ⟨%es, HS⟩⟩
      isplitl [HS]
      · unfold owns; iexists _; isplitr
        swap; · iexact HS
        ipureintro; exact mid_LS c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _ _
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]
      · unfold owns; iexists _; isplitr
        swap; · iexact H11
        ipureintro; exact mid_L11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _ _
      isplitl [H12]
      · unfold owns; iexists _; isplitr
        swap; · iexact H12
        ipureintro; exact mid_L12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _ _
      iexists _; iexact H13

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Syn

end
-- ==== Proof.KB.Launch.lean ====
/-
  The run of the synapse kernel's program: every weakly fair execution terminates without fault, and every array
  a window stages ends at what the write-backs of the proof data leave in it. The previous-spikes array is read
  through two windows: its full share is dealt to them in halves at entry.
-/
import proofs.«125167_j59399397704147_1_alg».proof.Proof.KB.Body
import Idealize.ShloMosaic.Lib.Pipeline.Launch

set_option maxRecDepth 16384

noncomputable section

namespace Cert.Kernel.Syn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (ρ : Dev nD → PrngReg)

/-! ## The buffers behind the windows' arrays -/

/-- The fourteen windows stage thirteen distinct buffers: the previous spikes' is behind two of them. -/
private theorem arrRefs_eq : Finset.univ.image (Pipeline.arrRef spec0)
    = [main_arg2, main_arg6, main_arg5, main_arg0, main_arg3, main_arg8, main_arg7, main_arg1, main_arg4,
        main_v0_0, main_v0_1, main_v0_2, main_v0_3].toFinset := by decide

private theorem arrRefs_nodup : [main_arg2, main_arg6, main_arg5, main_arg0, main_arg3, main_arg8, main_arg7, main_arg1, main_arg4,
    main_v0_0, main_v0_1, main_v0_2, main_v0_3].Nodup := by decide

/-- The buffers behind the arrays, one by one. -/
private theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg2) ↦{fullShare} V main_arg2) ∗ (((c : Thread nD τ).loc main_arg6) ↦{fullShare} V main_arg6)
          ∗ (((c : Thread nD τ).loc main_arg5) ↦{fullShare} V main_arg5) ∗ (((c : Thread nD τ).loc main_arg0) ↦{fullShare} V main_arg0)
          ∗ (((c : Thread nD τ).loc main_arg3) ↦{fullShare} V main_arg3) ∗ (((c : Thread nD τ).loc main_arg8) ↦{fullShare} V main_arg8)
          ∗ (((c : Thread nD τ).loc main_arg7) ↦{fullShare} V main_arg7) ∗ (((c : Thread nD τ).loc main_arg1) ↦{fullShare} V main_arg1)
          ∗ (((c : Thread nD τ).loc main_arg4) ↦{fullShare} V main_arg4) ∗ (((c : Thread nD τ).loc main_v0_0) ↦{fullShare} V main_v0_0)
          ∗ (((c : Thread nD τ).loc main_v0_1) ↦{fullShare} V main_v0_1) ∗ (((c : Thread nD τ).loc main_v0_2) ↦{fullShare} V main_v0_2)
          ∗ (((c : Thread nD τ).loc main_v0_3) ↦{fullShare} V main_v0_3)) := by
  unfold Pipeline.arrBufs
  exact bigSep_eq_bigSepL_of_eq _ arrRefs_eq arrRefs_nodup _

/-- The proof data's arrays at entry: every array is a whole buffer, so each window holds its buffer's points-to at
    its share, at the launch contents. -/
private theorem arrays_entry (c : Dev nD) :
    ((dats m 0 c).arrays ((dats m 0 c).arrAt · 0) : sProp 𝕄)
      = bigSep Finset.univ fun w : Fin cfg0.W =>
          (((c : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The thirteen buffers whole at the full share make the fourteen windows' holdings: each buffer goes to its one
    window, but the previous spikes', whose full share is the sum of its left and right halves, one half to each of
    the two windows that read it. -/
private theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_entry, arrBufs_eq, bigSep_W0]
  iintro ⟨H2, H6, H5, H0, H3, H8, H7, H1, H4, Hz, Hi, Hr, Hc⟩
  ihave H1' := (pointsTo_share (PosShare.mem_left_op_right fullShare)).1 $$ H1
  icases H1' with ⟨H1l, H1r⟩
  isplitl [H2]; · iexact H2
  isplitl [H6]; · iexact H6
  isplitl [H5]; · iexact H5
  isplitl [H0]; · iexact H0
  isplitl [H3]; · iexact H3
  isplitl [H8]; · iexact H8
  isplitl [H7]; · iexact H7
  isplitl [H1l]; · iexact H1l
  isplitl [H1r]; · iexact H1r
  isplitl [H4]; · iexact H4
  isplitl [Hz]; · iexact Hz
  isplitl [Hi]; · iexact Hi
  isplitl [Hr]; · iexact Hr
  iexact Hc

/-! ## The accumulator between the launch and the points -/

/-- Before the first point the invariant is the scoped rest: the accumulator at anything. -/
private theorem Phi_first (c : Dev nD) :
    (dats m 0 c).Φ 0 = Pipeline.scopedRest (Ix := Unit) (Name := ℕ) (U := UR sig nD τ) (Lvl := ℕ) (Val := Elt F) spec0 c := by
  dsimp only [dats]
  exact PhiS_zero m c _ _ (Fin.val_zero (cfg0.N + 1))

/-- After the last point the invariant holds the accumulator whole, at what the last point left. -/
private theorem Phi_last (c : Dev nD) :
    ∃ X, (dats m 0 c).Φ (Fin.last cfg0.N) = (((c : Thread nD τ).loc cc0_scratch0) ↦{fullShare} X : sProp 𝕄) := by
  have hz : (Fin.last cfg0.N).val ≠ 0 := by
    rw [Fin.val_last]; show grid0.N ≠ 0; rw [N_0]; decide
  refine ⟨accAt m c ((Fin.last cfg0.N).val - 1) (by omega), ?_⟩
  dsimp only [dats]
  exact (PhiS_pos m c _ _ hz).trans (owns_whole _ _ _ _)

/-! ## The run -/

set_option backward.isDefEq.respectTransparency.types false in
theorem run_main : θ_run defs (onTc (τ := τ) (main (F := F))) ⟨m, fun _ => 0, ρ⟩
    (fun r => ∀ (c : Dev nD) (w : Fin cfg0.W), r.2.mem ((cfg0.win w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun c => by rw [Phi_first]; iintro ⟨-, H⟩; iexact H)
    (hout := fun c => by
      obtain ⟨X, hX⟩ := Phi_last m c
      rw [hX, scopedRest0_eq]
      iintro H; isplitr; · iempintro
      iexists X; iexact H)
    (QY := fun _ _ => True)
    (hY := fun c s' => by
      iintro ⟨-, -, HSI⟩; imodintro
      isplitr; · ipureintro; trivial
      iexact HSI)
    (hQ := fun _ h c w => (h c).1 w)

end Cert.Kernel.Syn

end
-- ==== Proof.KB.Frame.lean ====
/-
  The run of the synapse kernel's program read at the arrays the claims name: an argument array is staged by an
  input window, which the pipeline never writes, so it ends at its launch contents; a result array is staged by
  an output window and ends at what the write-backs leave in it.
-/
import proofs.«125167_j59399397704147_1_alg».proof.Proof.KB.Launch

set_option maxRecDepth 16384

noncomputable section

namespace Cert.Kernel.Syn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's array ends at its launch contents: the pipeline never writes it back. -/
private theorem in_kept (c : Dev nD) (w : Fin cfg0.W) (hin : (cfg0.win w).isOut = false) :
    (dats m 0 c).arrAt w cfg0.N = V m c (Pipeline.arrRef spec0 w) :=
  ((dats m 0 c).arrAt_in w hin _).trans (A_eq m c w)

/-- Every weakly fair execution terminates without fault and leaves the nine argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  exact (θ_run defs _ _).mono (fun r h c =>
    ⟨(h c 3).trans (in_kept m c 3 rfl), (h c 7).trans (in_kept m c 7 rfl), (h c 0).trans (in_kept m c 0 rfl),
      (h c 4).trans (in_kept m c 4 rfl), (h c 9).trans (in_kept m c 9 rfl), (h c 2).trans (in_kept m c 2 rfl),
      (h c 1).trans (in_kept m c 1 rfl), (h c 6).trans (in_kept m c 6 rfl), (h c 5).trans (in_kept m c 5 rfl)⟩)
    (run_main m ρ)

/-- The same run with the four result arrays named: each at what the write-backs of the proof data leave. -/
theorem run_named : θ_run defs (onTc (τ := τ) (main (F := F))) ⟨m, fun _ => 0, ρ⟩ (fun r => ∀ c : Dev nD,
      r.2.mem ((c.tc : Thread nD τ).loc main_v0_0) = (dats m 0 c).arrAt 10 cfg0.N
      ∧ r.2.mem ((c.tc : Thread nD τ).loc main_v0_1) = (dats m 0 c).arrAt 11 cfg0.N
      ∧ r.2.mem ((c.tc : Thread nD τ).loc main_v0_2) = (dats m 0 c).arrAt 12 cfg0.N
      ∧ r.2.mem ((c.tc : Thread nD τ).loc main_v0_3) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  exact (θ_run defs _ _).mono (fun r h c =>
    ⟨h c 10, h c 11, h c 12, h c 13,
      (h c 3).trans (in_kept m c 3 rfl), (h c 7).trans (in_kept m c 7 rfl), (h c 0).trans (in_kept m c 0 rfl),
      (h c 4).trans (in_kept m c 4 rfl), (h c 9).trans (in_kept m c 9 rfl), (h c 2).trans (in_kept m c 2 rfl),
      (h c 1).trans (in_kept m c 1 rfl), (h c 6).trans (in_kept m c 6 rfl), (h c 5).trans (in_kept m c 5 rfl)⟩)
    (run_main m ρ)

end Cert.Kernel.Syn

end
-- ==== Proof.KI.Common.lean ====
/-
  What the three runs of the synapse kernel's body share. The grid is 8 x 8: point t has row block t / 8 and
  reduction step k = t % 8. The body zeroes its accumulator at k = 0, adds the two lane sums of the step's
  trace blocks at every k, and at k = 7 writes the refractory current and the spike. So a point is in one of
  three cases: first (k = 0), middle (0 < k < 7), last (k = 7). Here: the contents of the arrays as the kernel's
  region finds them, the two branch conditions decided over the 64 points, and where the two outputs written
  only at k = 7 are idle and not written back.
-/
import proofs.«125167_j59399397704147_1_alg».proof.Proof.Gen.KernelIdeal.Launch
import proofs.«125167_j59399397704147_1_alg».proof.Proof.Gen.KernelIdeal.Skeleton
import proofs.«125167_j59399397704147_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Syn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The program has no host operation before its one kernel region: the region finds every array at its launch
    contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions -/

/-- The accumulator is zeroed: the reduction step is the first. -/
abbrev condFirst (i : grid0.Coords) : Prop :=
  (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- The epilogue runs: the reduction step is the last. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem idle_z : ∀ t : Fin cfg0.N, ¬condLast (grid0.coords t) → cfg0.idle 10 (grid0.coords t) = true := by decide +kernel
theorem noFlush_z : ∀ t : Fin cfg0.N, ¬condLast (grid0.coords t) → (cfg0.win 10).flush t = false := by decide +kernel
theorem live_z : ∀ t : Fin cfg0.N, condLast (grid0.coords t) → cfg0.idle 10 (grid0.coords t) = false := by decide +kernel
theorem idle_ir : ∀ t : Fin cfg0.N, ¬condLast (grid0.coords t) → cfg0.idle 13 (grid0.coords t) = true := by decide +kernel
theorem noFlush_ir : ∀ t : Fin cfg0.N, ¬condLast (grid0.coords t) → (cfg0.win 13).flush t = false := by decide +kernel
theorem live_ir : ∀ t : Fin cfg0.N, condLast (grid0.coords t) → cfg0.idle 13 (grid0.coords t) = false := by decide +kernel

end Cert.KernelIdeal.Syn

end
-- ==== Proof.KI.RunMid.lean ====
/-
  The body's run at a middle point (0 < k < 7): neither branch is taken. It loads the eight trace-side input
  blocks, stores the two trace blocks whole, and adds their lane sums to the accumulator; the spike and
  refractory-current buffers are handed back untouched. The pieces each written buffer ends with are found by
  running the body.
-/
import proofs.«125167_j59399397704147_1_alg».proof.Proof.KI.Common

set_option maxRecDepth 16384

noncomputable section

namespace Cert.KernelIdeal.Syn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : ¬condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32) :
    Σ' (L11 : List (View.Piece (Elt F) S32x128x128 .f32)) (L12 : List (View.Piece (Elt F) S32x128x128 .f32)), { LS : List (View.Piece (Elt F) S32x128 .f32) //
      ∀ (xi10 xi13 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d) ∗ (∃ d, owns (c : Thread nD τ) arg14 fullShare d) ∗ owns (c : Thread nD τ) arg15 fullShare xi13 ∗ owns (c : Thread nD τ) arg16 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ owns (c : Thread nD τ) arg15 fullShare xi13 ∗ (∃ f, arg16.view.loc (c : Thread nD τ) ↦[arg16.view.set]{fullShare} arg16.view.writes (Elt F) f LS)) -∗ K ⟨⟩))
          ⊢ wp frame (wpE (defs₀ (F := F)) Variants.none c none) E (cc0__het_syn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun xi10 xi13 E K => ?run⟩
  case run =>
    simp only [cc0__het_syn_kernel_eq_skeleton]; unfold cc0__het_syn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hf9; obtain rfl := harg12.eq_unread hf10; obtain rfl := harg15.eq_unread hf13
    obtain rfl := harg16.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]
    · iexists _; isplitr; · ipureintro; exact harg15.read_unread _
      iexact H13
    iexists _; iexact HS

end Cert.KernelIdeal.Syn

end
-- ==== Proof.KI.RunFirst.lean ====
/-
  The body's run at a first point (k = 0): the accumulator is zeroed, whatever it held, before the step's two
  lane sums are added to it; otherwise as at a middle point.
-/
import proofs.«125167_j59399397704147_1_alg».proof.Proof.KI.RunMid

set_option maxRecDepth 16384

noncomputable section

namespace Cert.KernelIdeal.Syn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : condFirst i) (hc1 : ¬condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) :
    Σ' (L11 : List (View.Piece (Elt F) S32x128x128 .f32)) (L12 : List (View.Piece (Elt F) S32x128x128 .f32)), { LS : List (View.Piece (Elt F) S32x128 .f32) //
      ∀ (xi10 xi13 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d) ∗ (∃ d, owns (c : Thread nD τ) arg14 fullShare d) ∗ owns (c : Thread nD τ) arg15 fullShare xi13 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ owns (c : Thread nD τ) arg15 fullShare xi13 ∗ (∃ f, arg16.view.loc (c : Thread nD τ) ↦[arg16.view.set]{fullShare} arg16.view.writes (Elt F) f LS)) -∗ K ⟨⟩))
          ⊢ wp frame (wpE (defs₀ (F := F)) Variants.none c none) E (cc0__het_syn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun xi10 xi13 E K => ?run⟩
  case run =>
    simp only [cc0__het_syn_kernel_eq_skeleton]; unfold cc0__het_syn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hf9; obtain rfl := harg12.eq_unread hf10; obtain rfl := harg15.eq_unread hf13
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]
    · iexists _; isplitr; · ipureintro; exact harg15.read_unread _
      iexact H13
    iexists _; iexact HS

end Cert.KernelIdeal.Syn

end
-- ==== Proof.KI.RunLast.lean ====
/-
  The body's run at a last point (k = 7): after the step's two lane sums are added to the accumulator, the
  refractory current is computed from its two input blocks and stored whole, and the spike, the sign test of
  accumulator minus refractory current minus threshold, is stored whole.
-/
import proofs.«125167_j59399397704147_1_alg».proof.Proof.KI.RunFirst

set_option maxRecDepth 16384

noncomputable section

namespace Cert.KernelIdeal.Syn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32) :
    Σ' (L10 : List (View.Piece (Elt F) S32x128 .f32)) (L11 : List (View.Piece (Elt F) S32x128x128 .f32)) (L12 : List (View.Piece (Elt F) S32x128x128 .f32)) (L13 : List (View.Piece (Elt F) S32x128 .f32)), { LS : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS)) -∗ K ⟨⟩))
          ⊢ wp frame (wpE (defs₀ (F := F)) Variants.none c none) E (cc0__het_syn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0__het_syn_kernel_eq_skeleton]; unfold cc0__het_syn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hf9; obtain rfl := harg16.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    iexists _; iexact HS

end Cert.KernelIdeal.Syn

end
-- ==== Proof.KI.Pieces.lean ====
/-
  What each buffer the body wrote holds, read back, in each of the three cases: the run finds the stores as
  pieces; every store here is of a whole buffer, so the last store into a buffer is what it holds, and the loads
  that feed it read the inputs' contents. The trace buffers hold the step's trace blocks; the accumulator holds
  what it found (zero at a first step) plus the two lane sums; at a last step the refractory-current buffer holds
  decay * hIr + one * hz and the spike buffer the sign test over the accumulator just written.
-/
import proofs.«125167_j59399397704147_1_alg».proof.Proof.KI.RunLast
import Idealize.ShloMosaic.Lib.Pipeline.Value

set_option maxRecDepth 16384

noncomputable section

namespace Cert.KernelIdeal.Syn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz2 : (![0, 0] : Fin 2 → Nat) = fun _ => 0 := funext fun a => by fin_cases a <;> rfl

/-! ## A middle step -/

/-- The input-path trace buffer holds the step's input-path trace block. -/
theorem mid_L11 (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : ¬condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32)
    (v : View sig .tc .vmem S32x128x128 .f32) (f : v.ty.Contents (Elt F)) :
    v.read (Elt F) (v.writes (Elt F) f (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs).1) = k0_pay5 x1 x0 x2 x3 := by
  refine (View.read_writes_eq_canon v f _ (View.cover_of_tiledL _ S32x128x128.size (by sl_kernel_rfl))).trans ?_
  unfold runMid
  dsimp only
  sl_unfold_words
  rw [View.canon_unit_zero hz3]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-- The recurrent-path trace buffer holds the step's recurrent-path trace block. -/
theorem mid_L12 (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : ¬condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32)
    (v : View sig .tc .vmem S32x128x128 .f32) (f : v.ty.Contents (Elt F)) :
    v.read (Elt F) (v.writes (Elt F) f (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs).2.1) = k0_pay7 x5 x4 x6 x7 := by
  refine (View.read_writes_eq_canon v f _ (View.cover_of_tiledL _ S32x128x128.size (by sl_kernel_rfl))).trans ?_
  unfold runMid
  dsimp only
  sl_unfold_words
  rw [View.canon_unit_zero hz3]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-- The accumulator holds what it found plus the step's two lane sums. -/
theorem mid_LS (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : ¬condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32)
    (v : View sig .tc .vmem S32x128 .f32) (f : v.ty.Contents (Elt F)) :
    v.read (Elt F) (v.writes (Elt F) f (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs).2.2.1) = (k0_pay1 (k0_pay6 x1 x0 x2 x3) (k0_pay7 x5 x4 x6 x7) xs) := by
  refine (View.read_writes_eq_canon v f _ (View.cover_of_tiledL _ S32x128.size (by sl_kernel_rfl))).trans ?_
  unfold runMid
  dsimp only
  sl_unfold_words
  rw [View.canon_unit_zero hz2]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-! ## A first step -/

/-- The input-path trace buffer holds the step's input-path trace block. -/
theorem first_L11 (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : condFirst i) (hc1 : ¬condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32)
    (v : View sig .tc .vmem S32x128x128 .f32) (f : v.ty.Contents (Elt F)) :
    v.read (Elt F) (v.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).1) = k0_pay5 x1 x0 x2 x3 := by
  refine (View.read_writes_eq_canon v f _ (View.cover_of_tiledL _ S32x128x128.size (by sl_kernel_rfl))).trans ?_
  unfold runFirst
  dsimp only
  sl_unfold_words
  rw [View.canon_unit_zero hz3]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-- The recurrent-path trace buffer holds the step's recurrent-path trace block. -/
theorem first_L12 (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : condFirst i) (hc1 : ¬condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32)
    (v : View sig .tc .vmem S32x128x128 .f32) (f : v.ty.Contents (Elt F)) :
    v.read (Elt F) (v.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).2.1) = k0_pay7 x5 x4 x6 x7 := by
  refine (View.read_writes_eq_canon v f _ (View.cover_of_tiledL _ S32x128x128.size (by sl_kernel_rfl))).trans ?_
  unfold runFirst
  dsimp only
  sl_unfold_words
  rw [View.canon_unit_zero hz3]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-- The accumulator holds zero plus the step's two lane sums: the zeroing store is covered by the update. -/
theorem first_LS (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : condFirst i) (hc1 : ¬condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32)
    (v : View sig .tc .vmem S32x128 .f32) (f : v.ty.Contents (Elt F)) :
    v.read (Elt F) (v.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).2.2.1) = (k0_pay1 (k0_pay6 x1 x0 x2 x3) (k0_pay7 x5 x4 x6 x7) (k0_pay4 (F := F))) := by
  refine (View.read_writes_eq_canon v f _ (View.cover_of_tiledL _ S32x128.size (by sl_kernel_rfl))).trans ?_
  unfold runFirst
  dsimp only
  sl_unfold_words
  rw [View.canon_cons_unit_zero (S := S32x128) hz2]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-! ## A last step -/

/-- The input-path trace buffer holds the step's input-path trace block. -/
theorem last_L11 (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32)
    (v : View sig .tc .vmem S32x128x128 .f32) (f : v.ty.Contents (Elt F)) :
    v.read (Elt F) (v.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs).2.1) = k0_pay5 x1 x0 x2 x3 := by
  refine (View.read_writes_eq_canon v f _ (View.cover_of_tiledL _ S32x128x128.size (by sl_kernel_rfl))).trans ?_
  unfold runLast
  dsimp only
  sl_unfold_words
  rw [View.canon_unit_zero hz3]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-- The recurrent-path trace buffer holds the step's recurrent-path trace block. -/
theorem last_L12 (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32)
    (v : View sig .tc .vmem S32x128x128 .f32) (f : v.ty.Contents (Elt F)) :
    v.read (Elt F) (v.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs).2.2.1) = k0_pay7 x5 x4 x6 x7 := by
  refine (View.read_writes_eq_canon v f _ (View.cover_of_tiledL _ S32x128x128.size (by sl_kernel_rfl))).trans ?_
  unfold runLast
  dsimp only
  sl_unfold_words
  rw [View.canon_unit_zero hz3]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-- The accumulator holds what it found plus the step's two lane sums. -/
theorem last_LS (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32)
    (v : View sig .tc .vmem S32x128 .f32) (f : v.ty.Contents (Elt F)) :
    v.read (Elt F) (v.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs).2.2.2.2.1) = (k0_pay1 (k0_pay6 x1 x0 x2 x3) (k0_pay7 x5 x4 x6 x7) xs) := by
  refine (View.read_writes_eq_canon v f _ (View.cover_of_tiledL _ S32x128.size (by sl_kernel_rfl))).trans ?_
  unfold runLast
  dsimp only
  sl_unfold_words
  rw [View.canon_unit_zero hz2]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-- The refractory-current buffer holds the row block's refractory current. -/
theorem last_L13 (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32)
    (v : View sig .tc .vmem S32x128 .f32) (f : v.ty.Contents (Elt F)) :
    v.read (Elt F) (v.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs).2.2.2.1) = k0_pay2 x9 x8 := by
  refine (View.read_writes_eq_canon v f _ (View.cover_of_tiledL _ S32x128.size (by sl_kernel_rfl))).trans ?_
  unfold runLast
  dsimp only
  sl_unfold_words
  rw [View.canon_unit_zero hz2]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

/-- The spike buffer holds the sign test over the accumulator as this step leaves it. -/
theorem last_L10 (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc0 : ¬condFirst i) (hc1 : condLast i) (x0 : Vec F S32x128x128 .f32) (x1 : Vec F S128x128 .f32) (x2 : Vec F S128x128 .f32) (x3 : Vec F S32x128 .f32) (x4 : Vec F S32x128x128 .f32) (x5 : Vec F S128x128 .f32) (x6 : Vec F S128x128 .f32) (x7 : Vec F S32x128 .f32) (x8 : Vec F S32x128 .f32) (x9 : Vec F S32x128 .f32) (xs : Vec F S32x128 .f32)
    (v : View sig .tc .vmem S32x128 .f32) (f : v.ty.Contents (Elt F)) :
    v.read (Elt F) (v.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs).1) = k0_pay3 x9 x8 (k0_pay1 (k0_pay6 x1 x0 x2 x3) (k0_pay7 x5 x4 x6 x7) xs) := by
  refine (View.read_writes_eq_canon v f _ (View.cover_of_tiledL _ S32x128.size (by sl_kernel_rfl))).trans ?_
  unfold runLast
  dsimp only
  sl_unfold_words
  rw [View.canon_unit_zero hz2]
  first | rfl | (simp only [View.readAt_eq_ld, harg2.read_unread, harg3.read_unread, harg4.read_unread, harg5.read_unread, harg6.read_unread, harg7.read_unread, harg8.read_unread, harg9.read_unread, harg10.read_unread, harg11.read_unread, harg16.read_unread, View.readCov_unit_zero (S := S32x128) _ hz2, View.ld_unit_zero (S := S32x128x128) hz3, View.ld_unit_zero (S := S128x128) hz2, View.ld_unit_zero (S := S32x128) hz2])

end Cert.KernelIdeal.Syn

end
-- ==== Proof.KI.Data.lean ====
/-
  The proof data of the synapse kernel's pipeline: what every staging buffer holds after the body at every point,
  in closed form over the input blocks.

  At point t (row block t / 8, step k = t % 8) the body leaves
    * each input's buffer at its block;
    * the two trace outputs' buffers at the step's trace blocks  rho * h + w * s  (stored at every point);
    * the accumulator at  acc(t) = (zero if k = 0, else acc(t - 1)) + (lane sum of the input-path trace block +
      lane sum of the recurrent-path trace block);
    * at k = 7 the refractory-current buffer at  decay * hIr + one * hz  and the spike buffer at the sign test
      of  acc(t) - refractory current - threshold; at the other steps those two buffers are untouched.
  The previous spikes hz are read through two windows (by reduction step for the recurrent drive, by row block
  for the refractory current); the two windows hold the array at the two halves of its share.
-/
import proofs.«125167_j59399397704147_1_alg».proof.Proof.KI.Common

set_option maxRecDepth 16384

noncomputable section

namespace Cert.KernelIdeal.Syn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The input blocks at a point, at their literal types -/

abbrev bHin (c : Dev nD) (t : Fin cfg0.N) : Vec F S32x128x128 .f32 := iblk m c 0 t
abbrev bRhoIn (c : Dev nD) (t : Fin cfg0.N) : Vec F S128x128 .f32 := iblk m c 1 t
abbrev bWIn (c : Dev nD) (t : Fin cfg0.N) : Vec F S128x128 .f32 := iblk m c 2 t
abbrev bX (c : Dev nD) (t : Fin cfg0.N) : Vec F S32x128 .f32 := iblk m c 3 t
abbrev bHrec (c : Dev nD) (t : Fin cfg0.N) : Vec F S32x128x128 .f32 := iblk m c 4 t
abbrev bRhoRec (c : Dev nD) (t : Fin cfg0.N) : Vec F S128x128 .f32 := iblk m c 5 t
abbrev bWRec (c : Dev nD) (t : Fin cfg0.N) : Vec F S128x128 .f32 := iblk m c 6 t
abbrev bHzK (c : Dev nD) (t : Fin cfg0.N) : Vec F S32x128 .f32 := iblk m c 7 t
abbrev bHzI (c : Dev nD) (t : Fin cfg0.N) : Vec F S32x128 .f32 := iblk m c 8 t
abbrev bHIr (c : Dev nD) (t : Fin cfg0.N) : Vec F S32x128 .f32 := iblk m c 9 t

/-! ## What the body computes at a point -/

/-- The step's input-path trace block. -/
def traceIn (c : Dev nD) (t : Fin cfg0.N) : Vec F S32x128x128 .f32 :=
  k0_pay5 (bRhoIn m c t) (bHin m c t) (bWIn m c t) (bX m c t)
/-- Its lane sums. -/
def laneIn (c : Dev nD) (t : Fin cfg0.N) : Vec F S32x128 .f32 :=
  k0_pay6 (bRhoIn m c t) (bHin m c t) (bWIn m c t) (bX m c t)
/-- The step's recurrent-path trace block. -/
def traceRec (c : Dev nD) (t : Fin cfg0.N) : Vec F S32x128x128 .f32 :=
  k0_pay7 (bRhoRec m c t) (bHrec m c t) (bWRec m c t) (bHzK m c t)

/-- The accumulator after the body at position n: over zero at a first step, over what the point before left
    otherwise. -/
def accAt (c : Dev nD) : (n : ℕ) → n < cfg0.N → Vec F S32x128 .f32
  | 0, hn => k0_pay1 (laneIn m c ⟨0, hn⟩) (traceRec m c ⟨0, hn⟩) (k0_pay4 (F := F))
  | n + 1, hn => k0_pay1 (laneIn m c ⟨n + 1, hn⟩) (traceRec m c ⟨n + 1, hn⟩)
      (if (n + 1) % 8 = 0 then k0_pay4 (F := F) else accAt c n (Nat.lt_of_succ_lt hn))

theorem accAt_first (c : Dev nD) (t : Fin cfg0.N) (h : t.val % 8 = 0) :
    accAt m c t.val t.isLt = k0_pay1 (laneIn m c t) (traceRec m c t) (k0_pay4 (F := F)) := by
  obtain ⟨n, hn⟩ := t
  cases n with
  | zero => rfl
  | succ n => exact congrArg (k0_pay1 _ _) (if_pos h)

theorem accAt_later (c : Dev nD) (t : Fin cfg0.N) (h : ¬t.val % 8 = 0) :
    accAt m c t.val t.isLt = k0_pay1 (laneIn m c t) (traceRec m c t)
      (accAt m c (t.val - 1) (Nat.lt_of_le_of_lt (Nat.sub_le _ _) t.isLt)) := by
  obtain ⟨n, hn⟩ := t
  cases n with
  | zero => exact absurd (Nat.zero_mod _) h
  | succ n => exact congrArg (k0_pay1 _ _) (if_neg h)

/-- The refractory current of the point's row block. -/
def irAt (c : Dev nD) (t : Fin cfg0.N) : Vec F S32x128 .f32 := k0_pay2 (bHIr m c t) (bHzI m c t)
/-- The spike of the point's row block, from the accumulator as the point leaves it. -/
def zAt (c : Dev nD) (t : Fin cfg0.N) : Vec F S32x128 .f32 :=
  k0_pay3 (bHIr m c t) (bHzI m c t) (accAt m c t.val t.isLt)

/-! ## The invariant between points: the accumulator -/

/-- The accumulator, a whole scoped buffer of the kernel's own. -/
abbrev scM : Memref sig .tc .vmem S32x128 .f32 := Memref.whole cc0_scratch0

/-- Before the first point the accumulator holds anything; before any later point, what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAt m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as the region finds them; after the body each input's buffer at its block and each output's at
    the value above; the accumulator carried in the invariant; nothing owed; every array at the full share but
    the previous spikes', which two input windows read, at its two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => zAt m c t
    | ⟨11, _⟩ => traceIn m c t
    | ⟨12, _⟩ => traceRec m c t
    | ⟨13, _⟩ => irAt m c t
  Φ t := PhiS m c t.val (Nat.le_of_lt_succ t.isLt)
  q w := match w with
    | ⟨0, _⟩ => fullShare
    | ⟨1, _⟩ => fullShare
    | ⟨2, _⟩ => fullShare
    | ⟨3, _⟩ => fullShare
    | ⟨4, _⟩ => fullShare
    | ⟨5, _⟩ => fullShare
    | ⟨6, _⟩ => fullShare
    | ⟨7, _⟩ => fullShare.left
    | ⟨8, _⟩ => fullShare.right
    | ⟨9, _⟩ => fullShare
    | ⟨10, _⟩ => fullShare
    | ⟨11, _⟩ => fullShare
    | ⟨12, _⟩ => fullShare
    | ⟨13, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after_in (c : Dev nD) (t : Fin cfg0.N) :
    (dats m 0 c).after 0 t = iblk m c 0 t ∧ (dats m 0 c).after 1 t = iblk m c 1 t ∧ (dats m 0 c).after 2 t = iblk m c 2 t
    ∧ (dats m 0 c).after 3 t = iblk m c 3 t ∧ (dats m 0 c).after 4 t = iblk m c 4 t ∧ (dats m 0 c).after 5 t = iblk m c 5 t
    ∧ (dats m 0 c).after 6 t = iblk m c 6 t ∧ (dats m 0 c).after 7 t = iblk m c 7 t ∧ (dats m 0 c).after 8 t = iblk m c 8 t
    ∧ (dats m 0 c).after 9 t = iblk m c 9 t := by
  dsimp only [dats]; exact ⟨rfl, rfl, rfl, rfl, rfl, rfl, rfl, rfl, rfl, rfl⟩
theorem after_z (c : Dev nD) (t : Fin cfg0.N) : (dats m 0 c).after 10 t = zAt m c t := by dsimp only [dats]
theorem after_traceIn (c : Dev nD) (t : Fin cfg0.N) : (dats m 0 c).after 11 t = traceIn m c t := by dsimp only [dats]
theorem after_traceRec (c : Dev nD) (t : Fin cfg0.N) : (dats m 0 c).after 12 t = traceRec m c t := by dsimp only [dats]
theorem after_ir (c : Dev nD) (t : Fin cfg0.N) : (dats m 0 c).after 13 t = irAt m c t := by dsimp only [dats]

end Cert.KernelIdeal.Syn

end
-- ==== Proof.KI.Body.lean ====
/-
  The body obligation of the synapse kernel's pipeline: at every point, from the accumulator as the point before
  left it and every window's buffer at what it then holds, the body runs to the accumulator and the buffers at
  the proof data's contents. Every input's buffer holds its block, fetched at the point or not (an input not
  fetched has not moved to another block). The point's step (first, middle, last) selects the run; each buffer
  the run wrote holds, read back, the value the proof data names; the spike and refractory-current buffers are
  handed back as found except at a last step.
-/
import proofs.«125167_j59399397704147_1_alg».proof.Proof.KI.Pieces
import proofs.«125167_j59399397704147_1_alg».proof.Proof.KI.Data

set_option maxRecDepth 16384

noncomputable section

namespace Cert.KernelIdeal.Syn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Each window's current staging buffer at a point -/

abbrev ms0 (t : Fin cfg0.N) : Memref sig .tc .vmem S32x128x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S32x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S32x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S32x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S32x128x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S32x128x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S32x128 .f32 := win0_13.stage (cfg0.slots t 13)
abbrev hs13 (t : Fin cfg0.N) : (ms13 t).IsWhole := hstage0_13 ((cfg0.slots t 13).cast nbuf0_13)

/-! ## The inputs' buffers hold their blocks -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)

/-- Whatever the invariant says of the accumulator, the accumulator is there at some contents. -/
theorem PhiS_any (c : Dev nD) (n : ℕ) (h : n ≤ cfg0.N) :
    PhiS m c n h ⊢ iprop(∃ d, owns (c : Thread nD τ) scM fullShare d) := by
  cases n with
  | zero =>
    rw [PhiS_zero m c 0 h rfl, scopedRest0_eq]
    simp only [scM, owns_whole]
    exact Idealize.SL.BI.Entails.refl _
  | succ n =>
    rw [PhiS_succ]
    iintro H; iexists _; iexact H

/-! ## The obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt N_0
  rw [show (dats m 0 c).leavesExact 0 t = owns (c : Thread nD τ) (ms0 t) fullShare ((dats m 0 c).after 0 t) from by
    unfold Dat.leavesExact; rw [show cfg0.idle 0 (grid0.coords t) = false from rfl], after_0]
  rw [show (dats m 0 c).leavesExact 1 t = owns (c : Thread nD τ) (ms1 t) fullShare ((dats m 0 c).after 1 t) from by
    unfold Dat.leavesExact; rw [show cfg0.idle 1 (grid0.coords t) = false from rfl], after_1]
  rw [show (dats m 0 c).leavesExact 2 t = owns (c : Thread nD τ) (ms2 t) fullShare ((dats m 0 c).after 2 t) from by
    unfold Dat.leavesExact; rw [show cfg0.idle 2 (grid0.coords t) = false from rfl], after_2]
  rw [show (dats m 0 c).leavesExact 3 t = owns (c : Thread nD τ) (ms3 t) fullShare ((dats m 0 c).after 3 t) from by
    unfold Dat.leavesExact; rw [show cfg0.idle 3 (grid0.coords t) = false from rfl], after_3]
  rw [show (dats m 0 c).leavesExact 4 t = owns (c : Thread nD τ) (ms4 t) fullShare ((dats m 0 c).after 4 t) from by
    unfold Dat.leavesExact; rw [show cfg0.idle 4 (grid0.coords t) = false from rfl], after_4]
  rw [show (dats m 0 c).leavesExact 5 t = owns (c : Thread nD τ) (ms5 t) fullShare ((dats m 0 c).after 5 t) from by
    unfold Dat.leavesExact; rw [show cfg0.idle 5 (grid0.coords t) = false from rfl], after_5]
  rw [show (dats m 0 c).leavesExact 6 t = owns (c : Thread nD τ) (ms6 t) fullShare ((dats m 0 c).after 6 t) from by
    unfold Dat.leavesExact; rw [show cfg0.idle 6 (grid0.coords t) = false from rfl], after_6]
  rw [show (dats m 0 c).leavesExact 7 t = owns (c : Thread nD τ) (ms7 t) fullShare ((dats m 0 c).after 7 t) from by
    unfold Dat.leavesExact; rw [show cfg0.idle 7 (grid0.coords t) = false from rfl], after_7]
  rw [show (dats m 0 c).leavesExact 8 t = owns (c : Thread nD τ) (ms8 t) fullShare ((dats m 0 c).after 8 t) from by
    unfold Dat.leavesExact; rw [show cfg0.idle 8 (grid0.coords t) = false from rfl], after_8]
  rw [show (dats m 0 c).leavesExact 9 t = owns (c : Thread nD τ) (ms9 t) fullShare ((dats m 0 c).after 9 t) from by
    unfold Dat.leavesExact; rw [show cfg0.idle 9 (grid0.coords t) = false from rfl], after_9]
  rw [show (dats m 0 c).leavesExact 11 t = owns (c : Thread nD τ) (ms11 t) fullShare ((dats m 0 c).after 11 t) from by
    unfold Dat.leavesExact; rw [show cfg0.idle 11 (grid0.coords t) = false from rfl], after_traceIn]
  rw [show (dats m 0 c).leavesExact 12 t = owns (c : Thread nD τ) (ms12 t) fullShare ((dats m 0 c).after 12 t) from by
    unfold Dat.leavesExact; rw [show cfg0.idle 12 (grid0.coords t) = false from rfl], after_traceRec]
  by_cases h0 : t.val % 8 = 0
  · -- a first step
    have hc0 : condFirst (grid0.coords t) := (hcondFirst t).mpr h0
    have hc1 : ¬condLast (grid0.coords t) := fun h => by have := (hcondLast t).mp h; omega
    rw [Dat.leavesExact_idle (dats m 0 c) 10 t (idle_z t hc1) (noFlush_z t hc1),
      Dat.leavesExact_idle (dats m 0 c) 13 t (idle_ir t hc1) (noFlush_ir t hc1)]
    rw [accAt_first m c t h0]
    unfold traceIn traceRec laneIn
    rw [Phi_castSucc]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    ihave HS := PhiS_any m c _ _ $$ HΦ
    iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    isplitl [HS]; · iexact HS
    iintro ⟨H0, H1, H2, H3, H4, H5, H6, H7, H8, H9, H10, ⟨%e11, H11⟩, ⟨%e12, H12⟩, H13, ⟨%es, HS⟩⟩
    isplitl [HS]
    · unfold owns; iexists _; isplitr
      swap; · iexact HS
      ipureintro; exact first_LS c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]
    · unfold owns; iexists _; isplitr
      swap; · iexact H11
      ipureintro; exact first_L11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _
    isplitl [H12]
    · unfold owns; iexists _; isplitr
      swap; · iexact H12
      ipureintro; exact first_L12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _
    iexists _; iexact H13
  · have hc0 : ¬condFirst (grid0.coords t) := fun h => h0 ((hcondFirst t).mp h)
    by_cases h1 : t.val % 8 = 7
    · -- a last step
      have hc1 : condLast (grid0.coords t) := (hcondLast t).mpr h1
      rw [show (dats m 0 c).leavesExact 10 t = owns (c : Thread nD τ) (ms10 t) fullShare ((dats m 0 c).after 10 t) from by
        unfold Dat.leavesExact; rw [live_z t hc1], after_z]
      rw [show (dats m 0 c).leavesExact 13 t = owns (c : Thread nD τ) (ms13 t) fullShare ((dats m 0 c).after 13 t) from by
        unfold Dat.leavesExact; rw [live_ir t hc1], after_ir]
      unfold zAt irAt
      rw [accAt_later m c t h0]
      unfold traceIn traceRec laneIn
      have hz : t.val ≠ 0 := by omega
      rw [Phi_castSucc, PhiS_pos m c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [HΦ]; · iexact HΦ
      iintro ⟨H0, H1, H2, H3, H4, H5, H6, H7, H8, H9, ⟨%e10, H10⟩, ⟨%e11, H11⟩, ⟨%e12, H12⟩, ⟨%e13, H13⟩, ⟨%es, HS⟩⟩
      isplitl [HS]
      · unfold owns; iexists _; isplitr
        swap; · iexact HS
        ipureintro; exact last_LS c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _ _
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact last_L10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _ _
      isplitl [H11]
      · unfold owns; iexists _; isplitr
        swap; · iexact H11
        ipureintro; exact last_L11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _ _
      isplitl [H12]
      · unfold owns; iexists _; isplitr
        swap; · iexact H12
        ipureintro; exact last_L12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _ _
      unfold owns; iexists _; isplitr
      swap; · iexact H13
      ipureintro; exact last_L13 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _ _
    · -- a middle step
      have hc1 : ¬condLast (grid0.coords t) := fun h => h1 ((hcondLast t).mp h)
      rw [Dat.leavesExact_idle (dats m 0 c) 10 t (idle_z t hc1) (noFlush_z t hc1),
        Dat.leavesExact_idle (dats m 0 c) 13 t (idle_ir t hc1) (noFlush_ir t hc1)]
      rw [accAt_later m c t h0]
      unfold traceIn traceRec laneIn
      have hz : t.val ≠ 0 := by omega
      rw [Phi_castSucc, PhiS_pos m c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexact H13
      isplitl [HΦ]; · iexact HΦ
      iintro ⟨H0, H1, H2, H3, H4, H5, H6, H7, H8, H9, H10, ⟨%e11, H11⟩, ⟨%e12, H12⟩, H13, ⟨%es, HS⟩⟩
      isplitl [HS]
      · unfold owns; iexists _; isplitr
        swap; · iexact HS
        ipureintro; exact mid_LS c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _ _
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]
      · unfold owns; iexists _; isplitr
        swap; · iexact H11
        ipureintro; exact mid_L11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _ _
      isplitl [H12]
      · unfold owns; iexists _; isplitr
        swap; · iexact H12
        ipureintro; exact mid_L12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) _ _ _
      iexists _; iexact H13

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Syn

end
-- ==== Proof.KI.Launch.lean ====
/-
  The run of the synapse kernel's program: every weakly fair execution terminates without fault, and every array
  a window stages ends at what the write-backs of the proof data leave in it. The previous-spikes array is read
  through two windows: its full share is dealt to them in halves at entry.
-/
import proofs.«125167_j59399397704147_1_alg».proof.Proof.KI.Body
import Idealize.ShloMosaic.Lib.Pipeline.Launch

set_option maxRecDepth 16384

noncomputable section

namespace Cert.KernelIdeal.Syn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (ρ : Dev nD → PrngReg)

/-! ## The buffers behind the windows' arrays -/

/-- The fourteen windows stage thirteen distinct buffers: the previous spikes' is behind two of them. -/
private theorem arrRefs_eq : Finset.univ.image (Pipeline.arrRef spec0)
    = [main_arg2, main_arg6, main_arg5, main_arg0, main_arg3, main_arg8, main_arg7, main_arg1, main_arg4,
        main_v0_0, main_v0_1, main_v0_2, main_v0_3].toFinset := by decide

private theorem arrRefs_nodup : [main_arg2, main_arg6, main_arg5, main_arg0, main_arg3, main_arg8, main_arg7, main_arg1, main_arg4,
    main_v0_0, main_v0_1, main_v0_2, main_v0_3].Nodup := by decide

/-- The buffers behind the arrays, one by one. -/
private theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg2) ↦{fullShare} V main_arg2) ∗ (((c : Thread nD τ).loc main_arg6) ↦{fullShare} V main_arg6)
          ∗ (((c : Thread nD τ).loc main_arg5) ↦{fullShare} V main_arg5) ∗ (((c : Thread nD τ).loc main_arg0) ↦{fullShare} V main_arg0)
          ∗ (((c : Thread nD τ).loc main_arg3) ↦{fullShare} V main_arg3) ∗ (((c : Thread nD τ).loc main_arg8) ↦{fullShare} V main_arg8)
          ∗ (((c : Thread nD τ).loc main_arg7) ↦{fullShare} V main_arg7) ∗ (((c : Thread nD τ).loc main_arg1) ↦{fullShare} V main_arg1)
          ∗ (((c : Thread nD τ).loc main_arg4) ↦{fullShare} V main_arg4) ∗ (((c : Thread nD τ).loc main_v0_0) ↦{fullShare} V main_v0_0)
          ∗ (((c : Thread nD τ).loc main_v0_1) ↦{fullShare} V main_v0_1) ∗ (((c : Thread nD τ).loc main_v0_2) ↦{fullShare} V main_v0_2)
          ∗ (((c : Thread nD τ).loc main_v0_3) ↦{fullShare} V main_v0_3)) := by
  unfold Pipeline.arrBufs
  exact bigSep_eq_bigSepL_of_eq _ arrRefs_eq arrRefs_nodup _

/-- The proof data's arrays at entry: every array is a whole buffer, so each window holds its buffer's points-to at
    its share, at the launch contents. -/
private theorem arrays_entry (c : Dev nD) :
    ((dats m 0 c).arrays ((dats m 0 c).arrAt · 0) : sProp 𝕄)
      = bigSep Finset.univ fun w : Fin cfg0.W =>
          (((c : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The thirteen buffers whole at the full share make the fourteen windows' holdings: each buffer goes to its one
    window, but the previous spikes', whose full share is the sum of its left and right halves, one half to each of
    the two windows that read it. -/
private theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_entry, arrBufs_eq, bigSep_W0]
  iintro ⟨H2, H6, H5, H0, H3, H8, H7, H1, H4, Hz, Hi, Hr, Hc⟩
  ihave H1' := (pointsTo_share (PosShare.mem_left_op_right fullShare)).1 $$ H1
  icases H1' with ⟨H1l, H1r⟩
  isplitl [H2]; · iexact H2
  isplitl [H6]; · iexact H6
  isplitl [H5]; · iexact H5
  isplitl [H0]; · iexact H0
  isplitl [H3]; · iexact H3
  isplitl [H8]; · iexact H8
  isplitl [H7]; · iexact H7
  isplitl [H1l]; · iexact H1l
  isplitl [H1r]; · iexact H1r
  isplitl [H4]; · iexact H4
  isplitl [Hz]; · iexact Hz
  isplitl [Hi]; · iexact Hi
  isplitl [Hr]; · iexact Hr
  iexact Hc

/-! ## The accumulator between the launch and the points -/

/-- Before the first point the invariant is the scoped rest: the accumulator at anything. -/
private theorem Phi_first (c : Dev nD) :
    (dats m 0 c).Φ 0 = Pipeline.scopedRest (Ix := Unit) (Name := ℕ) (U := UR sig nD τ) (Lvl := ℕ) (Val := Elt F) spec0 c := by
  dsimp only [dats]
  exact PhiS_zero m c _ _ (Fin.val_zero (cfg0.N + 1))

/-- After the last point the invariant holds the accumulator whole, at what the last point left. -/
private theorem Phi_last (c : Dev nD) :
    ∃ X, (dats m 0 c).Φ (Fin.last cfg0.N) = (((c : Thread nD τ).loc cc0_scratch0) ↦{fullShare} X : sProp 𝕄) := by
  have hz : (Fin.last cfg0.N).val ≠ 0 := by
    rw [Fin.val_last]; show grid0.N ≠ 0; rw [N_0]; decide
  refine ⟨accAt m c ((Fin.last cfg0.N).val - 1) (by omega), ?_⟩
  dsimp only [dats]
  exact (PhiS_pos m c _ _ hz).trans (owns_whole _ _ _ _)

/-! ## The run -/

set_option backward.isDefEq.respectTransparency.types false in
theorem run_main : θ_run defs (onTc (τ := τ) (main (F := F))) ⟨m, fun _ => 0, ρ⟩
    (fun r => ∀ (c : Dev nD) (w : Fin cfg0.W), r.2.mem ((cfg0.win w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun c => by rw [Phi_first]; iintro ⟨-, H⟩; iexact H)
    (hout := fun c => by
      obtain ⟨X, hX⟩ := Phi_last m c
      rw [hX, scopedRest0_eq]
      iintro H; isplitr; · iempintro
      iexists X; iexact H)
    (QY := fun _ _ => True)
    (hY := fun c s' => by
      iintro ⟨-, -, HSI⟩; imodintro
      isplitr; · ipureintro; trivial
      iexact HSI)
    (hQ := fun _ h c w => (h c).1 w)

end Cert.KernelIdeal.Syn

end
-- ==== Proof.KI.Frame.lean ====
/-
  The run of the synapse kernel's program read at the arrays the claims name: an argument array is staged by an
  input window, which the pipeline never writes, so it ends at its launch contents; a result array is staged by
  an output window and ends at what the write-backs leave in it.
-/
import proofs.«125167_j59399397704147_1_alg».proof.Proof.KI.Launch

set_option maxRecDepth 16384

noncomputable section

namespace Cert.KernelIdeal.Syn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's array ends at its launch contents: the pipeline never writes it back. -/
private theorem in_kept (c : Dev nD) (w : Fin cfg0.W) (hin : (cfg0.win w).isOut = false) :
    (dats m 0 c).arrAt w cfg0.N = V m c (Pipeline.arrRef spec0 w) :=
  ((dats m 0 c).arrAt_in w hin _).trans (A_eq m c w)

/-- Every weakly fair execution terminates without fault and leaves the nine argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  exact (θ_run defs _ _).mono (fun r h c =>
    ⟨(h c 3).trans (in_kept m c 3 rfl), (h c 7).trans (in_kept m c 7 rfl), (h c 0).trans (in_kept m c 0 rfl),
      (h c 4).trans (in_kept m c 4 rfl), (h c 9).trans (in_kept m c 9 rfl), (h c 2).trans (in_kept m c 2 rfl),
      (h c 1).trans (in_kept m c 1 rfl), (h c 6).trans (in_kept m c 6 rfl), (h c 5).trans (in_kept m c 5 rfl)⟩)
    (run_main m ρ)

/-- The same run with the four result arrays named: each at what the write-backs of the proof data leave. -/
theorem run_named : θ_run defs (onTc (τ := τ) (main (F := F))) ⟨m, fun _ => 0, ρ⟩ (fun r => ∀ c : Dev nD,
      r.2.mem ((c.tc : Thread nD τ).loc main_v0_0) = (dats m 0 c).arrAt 10 cfg0.N
      ∧ r.2.mem ((c.tc : Thread nD τ).loc main_v0_1) = (dats m 0 c).arrAt 11 cfg0.N
      ∧ r.2.mem ((c.tc : Thread nD τ).loc main_v0_2) = (dats m 0 c).arrAt 12 cfg0.N
      ∧ r.2.mem ((c.tc : Thread nD τ).loc main_v0_3) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  exact (θ_run defs _ _).mono (fun r h c =>
    ⟨h c 10, h c 11, h c 12, h c 13,
      (h c 3).trans (in_kept m c 3 rfl), (h c 7).trans (in_kept m c 7 rfl), (h c 0).trans (in_kept m c 0 rfl),
      (h c 4).trans (in_kept m c 4 rfl), (h c 9).trans (in_kept m c 9 rfl), (h c 2).trans (in_kept m c 2 rfl),
      (h c 1).trans (in_kept m c 1 rfl), (h c 6).trans (in_kept m c 6 rfl), (h c 5).trans (in_kept m c 5 rfl)⟩)
    (run_main m ρ)

end Cert.KernelIdeal.Syn

end
-- ==== Proof.KI.Blocks.lean ====
/-
  Where the blocks of point t sit in the arrays. Point t has row block t / 8 and reduction step t % 8; the blocks
  are 128 wide on the neuron axes. So coordinate p of a row-indexed block is neuron 128 (t / 8) + p ('rowOf'),
  coordinate q of a column-indexed block is neuron 128 (t % 8) + q ('colOf'), and the batch axis is whole.
  Each input block read at its coordinates is the array read there.
-/
import proofs.«125167_j59399397704147_1_alg».proof.Proof.KI.Data
import Idealize.ShloMosaic.Lib.ValueIdx
import Idealize.ShloMosaic.Lib.Pipeline.Value

set_option maxRecDepth 16384

noncomputable section

namespace Cert.KernelIdeal.Syn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt F) ℓ)

/-- The output neuron that coordinate p of point t's row block is. -/
def rowOf (t : Fin cfg0.N) (p : Fin 128) : Fin 1024 :=
  ⟨128 * (t.val / 8) + p.val, by have h : t.val < 64 := lt_of_lt_of_eq t.isLt N_0; have := p.isLt; omega⟩
/-- The input (or recurrent) neuron that coordinate q of point t's reduction step is. -/
def colOf (t : Fin cfg0.N) (q : Fin 128) : Fin 1024 :=
  ⟨128 * (t.val % 8) + q.val, by have := q.isLt; omega⟩

theorem rowOf_val (t : Fin cfg0.N) (p : Fin 128) : (rowOf t p).val = 128 * (t.val / 8) + p.val := rfl
theorem colOf_val (t : Fin cfg0.N) (q : Fin 128) : (colOf t q).val = 128 * (t.val % 8) + q.val := rfl

/-- The windows' block indices over the grid: row-and-column windows sit at (t / 8, t % 8), the step's spike
    windows at column t % 8, the row block's windows at t / 8; a batch axis, where there is one, at 0. -/
theorem index_facts : ∀ t : Fin cfg0.N,
    win0_0.index t = ![0, t.val / 8, t.val % 8] ∧ win0_1.index t = ![t.val / 8, t.val % 8] ∧ win0_2.index t = ![t.val / 8, t.val % 8]
    ∧ win0_3.index t = ![0, t.val % 8] ∧ win0_4.index t = ![0, t.val / 8, t.val % 8] ∧ win0_5.index t = ![t.val / 8, t.val % 8]
    ∧ win0_6.index t = ![t.val / 8, t.val % 8] ∧ win0_7.index t = ![0, t.val % 8] ∧ win0_8.index t = ![0, t.val / 8]
    ∧ win0_9.index t = ![0, t.val / 8] ∧ win0_10.index t = ![0, t.val / 8] ∧ win0_11.index t = ![0, t.val / 8, t.val % 8]
    ∧ win0_12.index t = ![0, t.val / 8, t.val % 8] ∧ win0_13.index t = ![0, t.val / 8] :=
  (by decide +kernel : ∀ t : Fin grid0.N,
    win0_0.index t = ![0, t.val / 8, t.val % 8] ∧ win0_1.index t = ![t.val / 8, t.val % 8] ∧ win0_2.index t = ![t.val / 8, t.val % 8]
    ∧ win0_3.index t = ![0, t.val % 8] ∧ win0_4.index t = ![0, t.val / 8, t.val % 8] ∧ win0_5.index t = ![t.val / 8, t.val % 8]
    ∧ win0_6.index t = ![t.val / 8, t.val % 8] ∧ win0_7.index t = ![0, t.val % 8] ∧ win0_8.index t = ![0, t.val / 8]
    ∧ win0_9.index t = ![0, t.val / 8] ∧ win0_10.index t = ![0, t.val / 8] ∧ win0_11.index t = ![0, t.val / 8, t.val % 8]
    ∧ win0_12.index t = ![0, t.val / 8, t.val % 8] ∧ win0_13.index t = ![0, t.val / 8])

/-! ## The ten input blocks read at coordinates

On every axis an element of a block sits in the array at the block's index times the block's extent plus its own
coordinate. With the indices above that is b on a batch axis, 128 (t / 8) + p on a row axis and 128 (t % 8) + q
on a column axis. -/

theorem read_hin (c : Dev nD) (t : Fin cfg0.N) (b : Fin 32) (p q : Fin 128) :
    bHin m c t (ix3 b p q) = V m c main_arg2 (ix3 b (rowOf t p) (colOf t q)) := by
  have e := (index_facts t).1
  have h0 : win0_0.index t (0 : Fin 3) = 0 := congrFun e 0
  have h1 : win0_0.index t (1 : Fin 3) = t.val / 8 := congrFun e 1
  have h2 : win0_0.index t (2 : Fin 3) = t.val % 8 := congrFun e 2
  show V m c main_arg2 (((cfg0.win 0).blk t).view.emb (ix3 b p q)) = _
  refine congrArg (V m c main_arg2) (funext fun a => Fin.ext ?_)
  match a with
  | ⟨0, _⟩ => show win0_0.index t (0 : Fin 3) * 32 + 1 * b.val = b.val; omega
  | ⟨1, _⟩ => show win0_0.index t (1 : Fin 3) * 128 + 1 * p.val = 128 * (t.val / 8) + p.val; omega
  | ⟨2, _⟩ => show win0_0.index t (2 : Fin 3) * 128 + 1 * q.val = 128 * (t.val % 8) + q.val; omega
theorem read_rhoIn (c : Dev nD) (t : Fin cfg0.N) (p q : Fin 128) :
    bRhoIn m c t (ix2 p q) = V m c main_arg6 (ix2 (rowOf t p) (colOf t q)) := by
  have e := (index_facts t).2.1
  have h0 : win0_1.index t (0 : Fin 2) = t.val / 8 := congrFun e 0
  have h1 : win0_1.index t (1 : Fin 2) = t.val % 8 := congrFun e 1
  show V m c main_arg6 (((cfg0.win 1).blk t).view.emb (ix2 p q)) = _
  refine congrArg (V m c main_arg6) (funext fun a => Fin.ext ?_)
  match a with
  | ⟨0, _⟩ => show win0_1.index t (0 : Fin 2) * 128 + 1 * p.val = 128 * (t.val / 8) + p.val; omega
  | ⟨1, _⟩ => show win0_1.index t (1 : Fin 2) * 128 + 1 * q.val = 128 * (t.val % 8) + q.val; omega
theorem read_wIn (c : Dev nD) (t : Fin cfg0.N) (p q : Fin 128) :
    bWIn m c t (ix2 p q) = V m c main_arg5 (ix2 (rowOf t p) (colOf t q)) := by
  have e := (index_facts t).2.2.1
  have h0 : win0_2.index t (0 : Fin 2) = t.val / 8 := congrFun e 0
  have h1 : win0_2.index t (1 : Fin 2) = t.val % 8 := congrFun e 1
  show V m c main_arg5 (((cfg0.win 2).blk t).view.emb (ix2 p q)) = _
  refine congrArg (V m c main_arg5) (funext fun a => Fin.ext ?_)
  match a with
  | ⟨0, _⟩ => show win0_2.index t (0 : Fin 2) * 128 + 1 * p.val = 128 * (t.val / 8) + p.val; omega
  | ⟨1, _⟩ => show win0_2.index t (1 : Fin 2) * 128 + 1 * q.val = 128 * (t.val % 8) + q.val; omega
theorem read_x (c : Dev nD) (t : Fin cfg0.N) (b : Fin 32) (q : Fin 128) :
    bX m c t (ix2 b q) = V m c main_arg0 (ix2 b (colOf t q)) := by
  have e := (index_facts t).2.2.2.1
  have h0 : win0_3.index t (0 : Fin 2) = 0 := congrFun e 0
  have h1 : win0_3.index t (1 : Fin 2) = t.val % 8 := congrFun e 1
  show V m c main_arg0 (((cfg0.win 3).blk t).view.emb (ix2 b q)) = _
  refine congrArg (V m c main_arg0) (funext fun a => Fin.ext ?_)
  match a with
  | ⟨0, _⟩ => show win0_3.index t (0 : Fin 2) * 32 + 1 * b.val = b.val; omega
  | ⟨1, _⟩ => show win0_3.index t (1 : Fin 2) * 128 + 1 * q.val = 128 * (t.val % 8) + q.val; omega
theorem read_hrec (c : Dev nD) (t : Fin cfg0.N) (b : Fin 32) (p q : Fin 128) :
    bHrec m c t (ix3 b p q) = V m c main_arg3 (ix3 b (rowOf t p) (colOf t q)) := by
  have e := (index_facts t).2.2.2.2.1
  have h0 : win0_4.index t (0 : Fin 3) = 0 := congrFun e 0
  have h1 : win0_4.index t (1 : Fin 3) = t.val / 8 := congrFun e 1
  have h2 : win0_4.index t (2 : Fin 3) = t.val % 8 := congrFun e 2
  show V m c main_arg3 (((cfg0.win 4).blk t).view.emb (ix3 b p q)) = _
  refine congrArg (V m c main_arg3) (funext fun a => Fin.ext ?_)
  match a with
  | ⟨0, _⟩ => show win0_4.index t (0 : Fin 3) * 32 + 1 * b.val = b.val; omega
  | ⟨1, _⟩ => show win0_4.index t (1 : Fin 3) * 128 + 1 * p.val = 128 * (t.val / 8) + p.val; omega
  | ⟨2, _⟩ => show win0_4.index t (2 : Fin 3) * 128 + 1 * q.val = 128 * (t.val % 8) + q.val; omega
theorem read_rhoRec (c : Dev nD) (t : Fin cfg0.N) (p q : Fin 128) :
    bRhoRec m c t (ix2 p q) = V m c main_arg8 (ix2 (rowOf t p) (colOf t q)) := by
  have e := (index_facts t).2.2.2.2.2.1
  have h0 : win0_5.index t (0 : Fin 2) = t.val / 8 := congrFun e 0
  have h1 : win0_5.index t (1 : Fin 2) = t.val % 8 := congrFun e 1
  show V m c main_arg8 (((cfg0.win 5).blk t).view.emb (ix2 p q)) = _
  refine congrArg (V m c main_arg8) (funext fun a => Fin.ext ?_)
  match a with
  | ⟨0, _⟩ => show win0_5.index t (0 : Fin 2) * 128 + 1 * p.val = 128 * (t.val / 8) + p.val; omega
  | ⟨1, _⟩ => show win0_5.index t (1 : Fin 2) * 128 + 1 * q.val = 128 * (t.val % 8) + q.val; omega
theorem read_wRec (c : Dev nD) (t : Fin cfg0.N) (p q : Fin 128) :
    bWRec m c t (ix2 p q) = V m c main_arg7 (ix2 (rowOf t p) (colOf t q)) := by
  have e := (index_facts t).2.2.2.2.2.2.1
  have h0 : win0_6.index t (0 : Fin 2) = t.val / 8 := congrFun e 0
  have h1 : win0_6.index t (1 : Fin 2) = t.val % 8 := congrFun e 1
  show V m c main_arg7 (((cfg0.win 6).blk t).view.emb (ix2 p q)) = _
  refine congrArg (V m c main_arg7) (funext fun a => Fin.ext ?_)
  match a with
  | ⟨0, _⟩ => show win0_6.index t (0 : Fin 2) * 128 + 1 * p.val = 128 * (t.val / 8) + p.val; omega
  | ⟨1, _⟩ => show win0_6.index t (1 : Fin 2) * 128 + 1 * q.val = 128 * (t.val % 8) + q.val; omega
theorem read_hzK (c : Dev nD) (t : Fin cfg0.N) (b : Fin 32) (q : Fin 128) :
    bHzK m c t (ix2 b q) = V m c main_arg1 (ix2 b (colOf t q)) := by
  have e := (index_facts t).2.2.2.2.2.2.2.1
  have h0 : win0_7.index t (0 : Fin 2) = 0 := congrFun e 0
  have h1 : win0_7.index t (1 : Fin 2) = t.val % 8 := congrFun e 1
  show V m c main_arg1 (((cfg0.win 7).blk t).view.emb (ix2 b q)) = _
  refine congrArg (V m c main_arg1) (funext fun a => Fin.ext ?_)
  match a with
  | ⟨0, _⟩ => show win0_7.index t (0 : Fin 2) * 32 + 1 * b.val = b.val; omega
  | ⟨1, _⟩ => show win0_7.index t (1 : Fin 2) * 128 + 1 * q.val = 128 * (t.val % 8) + q.val; omega
theorem read_hzI (c : Dev nD) (t : Fin cfg0.N) (b : Fin 32) (p : Fin 128) :
    bHzI m c t (ix2 b p) = V m c main_arg1 (ix2 b (rowOf t p)) := by
  have e := (index_facts t).2.2.2.2.2.2.2.2.1
  have h0 : win0_8.index t (0 : Fin 2) = 0 := congrFun e 0
  have h1 : win0_8.index t (1 : Fin 2) = t.val / 8 := congrFun e 1
  show V m c main_arg1 (((cfg0.win 8).blk t).view.emb (ix2 b p)) = _
  refine congrArg (V m c main_arg1) (funext fun a => Fin.ext ?_)
  match a with
  | ⟨0, _⟩ => show win0_8.index t (0 : Fin 2) * 32 + 1 * b.val = b.val; omega
  | ⟨1, _⟩ => show win0_8.index t (1 : Fin 2) * 128 + 1 * p.val = 128 * (t.val / 8) + p.val; omega
theorem read_hIr (c : Dev nD) (t : Fin cfg0.N) (b : Fin 32) (p : Fin 128) :
    bHIr m c t (ix2 b p) = V m c main_arg4 (ix2 b (rowOf t p)) := by
  have e := (index_facts t).2.2.2.2.2.2.2.2.2.1
  have h0 : win0_9.index t (0 : Fin 2) = 0 := congrFun e 0
  have h1 : win0_9.index t (1 : Fin 2) = t.val / 8 := congrFun e 1
  show V m c main_arg4 (((cfg0.win 9).blk t).view.emb (ix2 b p)) = _
  refine congrArg (V m c main_arg4) (funext fun a => Fin.ext ?_)
  match a with
  | ⟨0, _⟩ => show win0_9.index t (0 : Fin 2) * 32 + 1 * b.val = b.val; omega
  | ⟨1, _⟩ => show win0_9.index t (1 : Fin 2) * 128 + 1 * p.val = 128 * (t.val / 8) + p.val; omega

end Cert.KernelIdeal.Syn

end
-- ==== Proof.Spec.lean ====
/-
  The heterogeneous-synapse recurrent cell as mathematics, over the extended reals, on coordinates: b is the
  batch row (32), p the output neuron (1024), q the input or recurrent neuron (1024).

  * a synaptic trace decays per synapse and is driven by the presynaptic spike:
        trace(b, p, q) = rho(p, q) * h(b, p, q) + w(p, q) * s(b, q);
  * the refractory current decays and is fed by the neuron's own previous spike:
        refrac(b, p) = decay * hIr(b, p) + one * hz(b, p);
  * the membrane drive of neuron p is the sum over q of its input traces plus the sum over q of its recurrent
    traces, and the neuron spikes when drive minus refractory current minus the threshold is positive.

  The kernel does not form the two row sums whole: it walks the 1024 columns in 8 steps of 128 lanes, and at each
  step adds that step's two lane sums to an accumulator that starts at zero ('accUpTo'). That the accumulator
  after the eighth step is the sum of the two whole row sums needs only that addition on the extended reals is
  commutative and associative with unit zero, which it is without any finiteness assumption ('accUpTo_last').
-/
import Idealize.ShloMosaic.PureOps.Ideal
import Idealize.ShloMosaic.Lib.ValueIdx

noncomputable section

open scoped BigOperators

namespace Cert.SynSpec

open Idealize.ShloMosaic Idealize.ShloMosaic.ValueIdx

/-- A per-synapse table (decay factors, weights): output neuron by input neuron. -/
abbrev Mat : Type := (⟨2, ![1024, 1024]⟩ : Shape).Idx → EReal
/-- A per-neuron quantity for every batch row (spikes, refractory currents). -/
abbrev Rows : Type := (⟨2, ![32, 1024]⟩ : Shape).Idx → EReal
/-- A per-synapse quantity for every batch row (synaptic traces). -/
abbrev Cube : Type := (⟨3, ![32, 1024, 1024]⟩ : Shape).Idx → EReal

/-- The updated synaptic trace of synapse (p, q) in batch row b. -/
def trace (rho w : Mat) (h : Cube) (s : Rows) (b : Fin 32) (p q : Fin 1024) : EReal :=
  rho (ix2 p q) * h (ix3 b p q) + w (ix2 p q) * s (ix2 b q)

/-- The updated refractory current of neuron p in batch row b; the decay is the f32 nearest exp(-dt/tau_r)
    and the threshold factor the f32 one, both as the programs spell them. -/
def refrac (hIr hz : Rows) (b : Fin 32) (p : Fin 1024) : EReal :=
  Ideal.ofBits .f32 0x3F7383C6#32 * hIr (ix2 b p) + Ideal.ofBits .f32 0x3F800000#32 * hz (ix2 b p)

/-- The membrane drive of a neuron from the two trace rows that end on it. -/
def drive (tin trec : Fin 1024 → EReal) : EReal := (∑ q, tin q) + (∑ q, trec q)

/-- The spike: one when drive minus refractory current minus the threshold is positive, else zero. -/
def spike (v ir : EReal) : EReal :=
  (((FloatOps.cmpf (F := Ideal) (φ := .f32) .ogt ((v - ir) - Ideal.ofBits .f32 0x3F800000#32) (Ideal.ofBits .f32 0x00000000#32)).toNat : ℝ) : EReal)

/-! ## The accumulation in eight steps of 128 lanes -/

/-- Step k's lane sum of a row: the sum of its columns 128 k, ..., 128 k + 127. -/
def laneSum (f : Fin 1024 → EReal) (k : Fin 8) : EReal :=
  ∑ l : Fin 128, f ⟨128 * k.val + l.val, by have := k.isLt; have := l.isLt; omega⟩

/-- The accumulator after step k: zero plus the first step's two lane sums, then each later step's added on. -/
def accUpTo (f g : Fin 1024 → EReal) : (k : ℕ) → k < 8 → EReal
  | 0, h => 0 + (laneSum f ⟨0, h⟩ + laneSum g ⟨0, h⟩)
  | k + 1, h => accUpTo f g k (Nat.lt_of_succ_lt h) + (laneSum f ⟨k + 1, h⟩ + laneSum g ⟨k + 1, h⟩)

theorem accUpTo_zero (f g : Fin 1024 → EReal) (h : 0 < 8) :
    accUpTo f g 0 h = 0 + (laneSum f ⟨0, h⟩ + laneSum g ⟨0, h⟩) := rfl

theorem accUpTo_succ (f g : Fin 1024 → EReal) (k : ℕ) (h : k + 1 < 8) :
    accUpTo f g (k + 1) h = accUpTo f g k (Nat.lt_of_succ_lt h) + (laneSum f ⟨k + 1, h⟩ + laneSum g ⟨k + 1, h⟩) := rfl

end Cert.SynSpec

end
-- ==== Proof.SpecLaws.lean ====
/-
  Two facts about the synapse cell's arithmetic on the extended reals.

  The eight-step accumulation is the sum of the two whole row sums: 1024 = 8 * 128, so a row's sum is the sum
  over the eight steps of the steps' lane sums; the accumulator is zero plus, step by step, the two lane sums;
  addition of extended reals is commutative and associative with unit zero (no finiteness is needed: the
  extended reals are a commutative additive monoid).

  A one-bit word widened to 32 bits has the same signed and unsigned reading (it is 0 or 1).
-/
import proofs.«125167_j59399397704147_1_alg».proof.Proof.Spec
import Mathlib.Algebra.BigOperators.Fin
import Mathlib.Algebra.BigOperators.Group.Finset.Basic
import Mathlib.Logic.Equiv.Fin.Basic
import Mathlib.Data.EReal.Basic
import Mathlib.Tactic.Abel

noncomputable section

open scoped BigOperators

namespace Cert.SynSpec

open Idealize.ShloMosaic Idealize.ShloMosaic.ValueIdx

/-- A row's sum is the sum over the eight steps of the steps' lane sums: column q = 128 k + l is reached
    exactly once as (k, l) ranges over eight steps times 128 lanes. -/
private theorem sum_eq_lanes (f : Fin 1024 → EReal) : ∑ q, f q = ∑ k : Fin 8, laneSum f k := by
  rw [← Equiv.sum_comp (finProdFinEquiv : Fin 8 × Fin 128 ≃ Fin (8 * 128)) f, Fintype.sum_prod_type]
  refine Finset.sum_congr rfl fun k _ => ?_
  unfold laneSum
  refine Finset.sum_congr rfl fun l _ => ?_
  congr 1
  apply Fin.ext
  show l.val + 128 * k.val = 128 * k.val + l.val
  omega

/-- The left-nested accumulation of eight pairs from zero is the sum of the firsts plus the sum of the seconds:
    commutativity and associativity of addition, and zero as its unit. -/
private theorem acc_eight (a b : Fin 8 → EReal) :
    0 + (a 0 + b 0) + (a 1 + b 1) + (a 2 + b 2) + (a 3 + b 3) + (a 4 + b 4) + (a 5 + b 5) + (a 6 + b 6)
        + (a 7 + b 7)
      = (a 0 + a 1 + a 2 + a 3 + a 4 + a 5 + a 6 + a 7) + (b 0 + b 1 + b 2 + b 3 + b 4 + b 5 + b 6 + b 7) := by
  rw [zero_add]
  abel

/-- After the eighth step the accumulator is the drive: the sum of the two whole row sums. -/
theorem accUpTo_last (f g : Fin 1024 → EReal) : accUpTo f g 7 (by decide) = drive f g := by
  unfold drive
  rw [sum_eq_lanes f, sum_eq_lanes g, Fin.sum_univ_eight, Fin.sum_univ_eight]
  exact acc_eight (laneSum f) (laneSum g)

/-- A one-bit word widened to 32 bits reads the same signed and unsigned: the kernel converts the widened
    comparison bit as a signed integer, the reference converts the bit itself as an unsigned one. -/
theorem bit_signed_eq_unsigned (b : BitVec 1) : (((b.setWidth 32).toInt : ℝ) : EReal) = ((b.toNat : ℝ) : EReal) := by
  have h : (b.setWidth 32).toInt = (b.toNat : ℤ) := by
    rcases BitVec.eq_zero_or_eq_one b with h | h <;> subst h <;> decide
  rw [h, Int.cast_natCast]

end Cert.SynSpec

end
-- ==== Proof.KI.PointValues.lean ====
/-
  What the body computes at a point, read at a coordinate, at the ideal instance (floats are extended reals, the
  operations exact): the trace blocks are the cell's trace at the block's neurons; a lane sum is the sum over the
  step's 128 columns; an accumulator update adds the two lane sums to what it found; the refractory current and the
  spike are the cell's at the row block's neurons.
-/
import proofs.«125167_j59399397704147_1_alg».proof.Proof.KI.Blocks
import proofs.«125167_j59399397704147_1_alg».proof.Proof.SpecLaws
import Idealize.ShloMosaic.PureOps.Ideal.Laws
import Idealize.ShloMosaic.Lib.ValueLayout

set_option maxRecDepth 16384

noncomputable section

namespace Cert.KernelIdeal.Syn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ)

/-- The cell's input-path trace, recurrent-path trace and refractory current of the arrays as the region finds them. -/
abbrev trIn (c : Dev nD) : Fin 32 → Fin 1024 → Fin 1024 → EReal :=
  SynSpec.trace (V m c main_arg6) (V m c main_arg5) (V m c main_arg2) (V m c main_arg0)
abbrev trRec (c : Dev nD) : Fin 32 → Fin 1024 → Fin 1024 → EReal :=
  SynSpec.trace (V m c main_arg8) (V m c main_arg7) (V m c main_arg3) (V m c main_arg1)
abbrev refr (c : Dev nD) : Fin 32 → Fin 1024 → EReal :=
  SynSpec.refrac (V m c main_arg4) (V m c main_arg1)

/-! ## The layout operations of the trace payloads, read at a coordinate -/

/-- A per-synapse table [128, 128], given a leading unit axis and repeated over the 32 batch rows, reads at (b, p, q)
    the table at (p, q). -/
private theorem table_at {α : Type} (v : S128x128.Idx → α) (b : Fin 32) (p q : Fin 128) :
    broadcastTo S32x128x128 (shapeCast S1x128x128 v shapeCasts_S128x128_S1x128x128) broadcasts_S1x128x128_S32x128x128
        (ix3 b p q) = v (ix2 p q) := by
  refine (broadcastTo_apply _ _ (ix3 b p q) (ix3 (0 : Fin 1) p q) fun a => ?_).trans
    (shapeCast_ab_1ab_apply v _ 0 p q)
  match a with
  | ⟨0, _⟩ => rfl
  | ⟨1, _⟩ => rfl
  | ⟨2, _⟩ => rfl

/-- A block of spikes [32, 128], given a middle unit axis and repeated over the 128 output neurons, reads at
    (b, p, q) the block at (b, q): both positions are 128 b + q in row-major order. -/
private theorem rows_at {α : Type} (v : S32x128.Idx → α) (b : Fin 32) (p q : Fin 128) :
    broadcastTo S32x128x128 (shapeCast S32x1x128 v shapeCasts_S32x128_S32x1x128) broadcasts_S32x1x128_S32x128x128
        (ix3 b p q) = v (ix2 b q) := by
  refine (broadcastTo_apply _ _ (ix3 b p q) (ix3 b (0 : Fin 1) q) fun a => ?_).trans
    (shapeCast_apply v _ _ _ ?_)
  · match a with
    | ⟨0, _⟩ => rfl
    | ⟨1, _⟩ => rfl
    | ⟨2, _⟩ => rfl
  · rw [Shape.rowMajor_val_three, Shape.rowMajor_val_two]
    show b.val * 128 + q.val = (b.val * 1 + 0) * 128 + q.val
    omega

/-- The sum over the last axis of a [32, 128, 128] block reads, at (b, p), the sum over q of the block at (b, p, q). -/
private theorem lanes_at (src : FVec Ideal S32x128x128 .f32) (b : Fin 32) (p : Fin 128) :
    multiReduction (F := Ideal) .add [2] S32x128 src 0x00000000#32 reduces_S32x128x128_S32x128 (.inl rfl) rfl (ix2 b p)
      = ∑ q : Fin 128, src (ix3 b p q) :=
  (Ideal.multiReduction_add_single _ _ _ _ _ _).trans
    (Finset.sum_congr rfl fun k _ => congrArg _ (funext fun a => by
      match a with
      | ⟨0, _⟩ => rfl
      | ⟨1, _⟩ => rfl
      | ⟨2, _⟩ => rfl))

/-! ## The payloads at a coordinate, over any blocks -/

/-- The input-path trace block: decay times the old trace plus weight times the presynaptic spike. -/
private theorem pay5_at (v3 : Vec Ideal S128x128 .f32) (v5 : Vec Ideal S32x128x128 .f32) (v8 : Vec Ideal S128x128 .f32)
    (v10 : Vec Ideal S32x128 .f32) (b : Fin 32) (p q : Fin 128) :
    k0_pay5 (F := Ideal) v3 v5 v8 v10 (ix3 b p q)
      = v3 (ix2 p q) * v5 (ix3 b p q) + v8 (ix2 p q) * v10 (ix2 b q) := by
  unfold k0_pay5
  exact congrArg₂ (· + ·) (congrArg (· * v5 (ix3 b p q)) (table_at v3 b p q))
    (congrArg₂ (· * ·) (table_at v8 b p q) (rows_at v10 b p q))

/-- The recurrent-path trace block: the same expression over the recurrent blocks. -/
private theorem pay7_at (v18 : Vec Ideal S128x128 .f32) (v20 : Vec Ideal S32x128x128 .f32) (v23 : Vec Ideal S128x128 .f32)
    (v25 : Vec Ideal S32x128 .f32) (b : Fin 32) (p q : Fin 128) :
    k0_pay7 (F := Ideal) v18 v20 v23 v25 (ix3 b p q)
      = v18 (ix2 p q) * v20 (ix3 b p q) + v23 (ix2 p q) * v25 (ix2 b q) := by
  unfold k0_pay7
  exact congrArg₂ (· + ·) (congrArg (· * v20 (ix3 b p q)) (table_at v18 b p q))
    (congrArg₂ (· * ·) (table_at v23 b p q) (rows_at v25 b p q))

/-- The refractory current: the decay constant times the old current plus the threshold constant times the neuron's
    own previous spike. -/
private theorem pay2_at (v42 v45 : Vec Ideal S32x128 .f32) (j : S32x128.Idx) :
    k0_pay2 (F := Ideal) v42 v45 j
      = Ideal.ofBits .f32 0x3F7383C6#32 * v42 j + Ideal.ofBits .f32 0x3F800000#32 * v45 j := rfl

/-- The spike: the sign test of accumulator minus refractory current minus threshold, as a one-bit word widened to
    32 bits and converted signed; a one-bit word reads the same signed and unsigned. -/
private theorem pay3_at (v42 v45 v50 : Vec Ideal S32x128 .f32) (j : S32x128.Idx) :
    k0_pay3 (F := Ideal) v42 v45 v50 j = SynSpec.spike (v50 j) (k0_pay2 (F := Ideal) v42 v45 j) :=
  SynSpec.bit_signed_eq_unsigned
    (FloatOps.cmpf (F := Ideal) (φ := .f32) .ogt
      ((v50 j - k0_pay2 (F := Ideal) v42 v45 j) - Ideal.ofBits .f32 0x3F800000#32) (Ideal.ofBits .f32 0x00000000#32))

/-! ## The payloads at the point's blocks -/

theorem traceIn_at (c : Dev nD) (t : Fin cfg0.N) (b : Fin 32) (p q : Fin 128) :
    traceIn (F := Ideal) m c t (ix3 b p q) = trIn m c b (rowOf t p) (colOf t q) := by
  unfold traceIn
  rw [pay5_at, read_rhoIn, read_hin, read_wIn, read_x]
  rfl
theorem traceRec_at (c : Dev nD) (t : Fin cfg0.N) (b : Fin 32) (p q : Fin 128) :
    traceRec (F := Ideal) m c t (ix3 b p q) = trRec m c b (rowOf t p) (colOf t q) := by
  unfold traceRec
  rw [pay7_at, read_rhoRec, read_hrec, read_wRec, read_hzK]
  rfl
theorem laneIn_at (c : Dev nD) (t : Fin cfg0.N) (b : Fin 32) (p : Fin 128) :
    laneIn (F := Ideal) m c t (ix2 b p) = ∑ q : Fin 128, trIn m c b (rowOf t p) (colOf t q) := by
  unfold laneIn k0_pay6
  exact (lanes_at _ b p).trans (Finset.sum_congr rfl fun q _ => traceIn_at m c t b p q)
/-- An accumulator update at a coordinate: what it found, plus the input-path lane sum, plus the lane sum of the
    recurrent-path trace block. -/
theorem accStep_at (v17 : FVec Ideal S32x128 .f32) (v30 : FVec Ideal S32x128x128 .f32) (v33 : Vec Ideal S32x128 .f32) (b : Fin 32) (p : Fin 128) :
    k0_pay1 (F := Ideal) v17 v30 v33 (ix2 b p) = v33 (ix2 b p) + (v17 (ix2 b p) + ∑ q : Fin 128, v30 (ix3 b p q)) := by
  unfold k0_pay1
  refine (congrFun (shapeCast_self _ _) _).trans ?_
  exact congrArg (v33 (ix2 b p) + ·) (congrArg (v17 (ix2 b p) + ·) (lanes_at v30 b p))
theorem accZero_at (j : S32x128.Idx) : k0_pay4 (F := Ideal) j = 0 := by
  unfold k0_pay4
  exact (congrFun (shapeCast_self _ _) _).trans Ideal.ofBits_zero_f32
theorem irAt_at (c : Dev nD) (t : Fin cfg0.N) (b : Fin 32) (p : Fin 128) :
    irAt (F := Ideal) m c t (ix2 b p) = refr m c b (rowOf t p) := by
  unfold irAt
  rw [pay2_at, read_hIr, read_hzI]
  rfl
theorem zAt_at (c : Dev nD) (t : Fin cfg0.N) (b : Fin 32) (p : Fin 128) :
    zAt (F := Ideal) m c t (ix2 b p) = SynSpec.spike (accAt (F := Ideal) m c t.val t.isLt (ix2 b p)) (refr m c b (rowOf t p)) := by
  unfold zAt
  rw [pay3_at]
  exact congrArg (SynSpec.spike _) (irAt_at m c t b p)

end Cert.KernelIdeal.Syn

end
-- ==== Proof.KI.FinalTraces.lean ====
/-
  The two trace arrays after the run: every point writes its trace blocks back, the 64 blocks of a trace array
  tile it, and each block is the cell's trace at the block's neurons; so each array is the cell's trace.
-/
import proofs.«125167_j59399397704147_1_alg».proof.Proof.KI.PointValues

set_option maxRecDepth 16384

noncomputable section

namespace Cert.KernelIdeal.Syn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ)

/-- The cell's input-path trace as one array: at (b, p, q) the trace of synapse (p, q) in batch row b. -/
private def cubeIn (c : Dev nD) : SynSpec.Cube := fun j => trIn m c (j 0) (j 1) (j 2)

/-- What point t writes back into the input-path trace array is its block of the cell's input trace. -/
private theorem flushedIn_eq (c : Dev nD) (t : Fin cfg0.N) :
    (dats (F := Ideal) m 0 c).flushed 11 t = ((cfg0.win 11).blk t).view.read (Elt Ideal) (cubeIn m c) := by
  show (cfg0.win 11).cut (grid0.coords t) ((dats m 0 c).after 11 t) = _
  rw [after_traceIn]
  funext y
  obtain ⟨b, p, q, rfl⟩ : ∃ (b : Fin 32) (p q : Fin 128), y = ix3 b p q := ⟨y 0, y 1, y 2, eq_ix3 y⟩
  rw [View.read_apply]
  show traceIn m c t (ix3 b p q) = cubeIn m c (((cfg0.win 11).blk t).view.emb (ix3 b p q))
  rw [traceIn_at]
  obtain ⟨-, -, -, -, -, -, -, -, -, -, -, e, -, -⟩ := index_facts t
  have i0 : win0_11.index t 0 = 0 := congrFun e 0
  have i1 : win0_11.index t 1 = t.val / 8 := congrFun e 1
  have i2 : win0_11.index t 2 = t.val % 8 := congrFun e 2
  have h0 : ((cfg0.win 11).blk t).view.emb (ix3 b p q) 0 = b :=
    Fin.ext (by show win0_11.index t 0 * 32 + 1 * b.val = b.val; omega)
  have h1 : ((cfg0.win 11).blk t).view.emb (ix3 b p q) 1 = rowOf t p :=
    Fin.ext (by show win0_11.index t 1 * 128 + 1 * p.val = 128 * (t.val / 8) + p.val; omega)
  have h2 : ((cfg0.win 11).blk t).view.emb (ix3 b p q) 2 = colOf t q :=
    Fin.ext (by show win0_11.index t 2 * 128 + 1 * q.val = 128 * (t.val % 8) + q.val; omega)
  show _ = trIn m c (((cfg0.win 11).blk t).view.emb (ix3 b p q) 0) (((cfg0.win 11).blk t).view.emb (ix3 b p q) 1)
    (((cfg0.win 11).blk t).view.emb (ix3 b p q) 2)
  rw [h0, h1, h2]

/-- An index of the trace array is in point t's block iff each coordinate is in the block's range on its axis. -/
private theorem mem_blkIn (t : Fin cfg0.N) (i : S32x1024x1024.Idx) :
    i ∈ ((cfg0.win 11).blk t).view.set ↔ ∀ a : Fin 3, win0_11.index t a * S32x128x128.size a ≤ (i a).val
      ∧ (i a).val < win0_11.index t a * S32x128x128.size a + S32x128x128.size a := by
  show i ∈ ((View.whole main_v0_1).slice (win0_11.rect t)).set ↔ _
  rw [View.set_slice_whole, Rect.mem_set_unit]
  exact Iff.rfl

/-- The blocks tile the array: index (b, p, q) lies in the block of the point with row block p / 128 and
    reduction step q / 128, and every point writes its block back. -/
private theorem coverIn (i : S32x1024x1024.Idx) :
    ∃ t : Fin cfg0.N, (cfg0.win 11).flush t = true ∧ i ∈ ((cfg0.win 11).blk t).view.set := by
  have hi0 : (i 0).val < 32 := (i 0).isLt
  have hi1 : (i 1).val < 1024 := (i 1).isLt
  have hi2 : (i 2).val < 1024 := (i 2).isLt
  have hN : cfg0.N = 64 := N_0
  obtain ⟨t, tv⟩ : ∃ t : Fin cfg0.N, t.val = 8 * ((i 1).val / 128) + (i 2).val / 128 :=
    ⟨⟨8 * ((i 1).val / 128) + (i 2).val / 128, by rw [hN]; omega⟩, rfl⟩
  refine ⟨t, flush0_11 t, ?_⟩
  rw [mem_blkIn]
  obtain ⟨-, -, -, -, -, -, -, -, -, -, -, e, -, -⟩ := index_facts t
  have i0 : win0_11.index t 0 = 0 := congrFun e 0
  have i1 : win0_11.index t 1 = t.val / 8 := congrFun e 1
  have i2 : win0_11.index t 2 = t.val % 8 := congrFun e 2
  intro a
  match a with
  | ⟨0, _⟩ => show win0_11.index t 0 * 32 ≤ (i 0).val ∧ (i 0).val < win0_11.index t 0 * 32 + 32; omega
  | ⟨1, _⟩ => show win0_11.index t 1 * 128 ≤ (i 1).val ∧ (i 1).val < win0_11.index t 1 * 128 + 128; omega
  | ⟨2, _⟩ => show win0_11.index t 2 * 128 ≤ (i 2).val ∧ (i 2).val < win0_11.index t 2 * 128 + 128; omega

theorem final_traceIn (c : Dev nD) (b : Fin 32) (p q : Fin 1024) :
    ((dats (F := Ideal) m 0 c).arrAt 11 cfg0.N : SynSpec.Cube) (ix3 b p q) = trIn m c b p q := by
  have h := (dats (F := Ideal) m 0 c).arrAt_eq_of_cover 11 (cubeIn m c) (fun t _ => flushedIn_eq m c t) coverIn
  exact congrFun h (ix3 b p q)
/-! ## The recurrent-path trace array: the same steps over its own window -/

/-- The cell's recurrent-path trace as one array: at (b, p, q) the trace of synapse (p, q) in batch row b. -/
private def cubeRec (c : Dev nD) : SynSpec.Cube := fun j => trRec m c (j 0) (j 1) (j 2)

/-- What point t writes back into the recurrent-path trace array is its block of the cell's recurrent trace. -/
private theorem flushedRec_eq (c : Dev nD) (t : Fin cfg0.N) :
    (dats (F := Ideal) m 0 c).flushed 12 t = ((cfg0.win 12).blk t).view.read (Elt Ideal) (cubeRec m c) := by
  show (cfg0.win 12).cut (grid0.coords t) ((dats m 0 c).after 12 t) = _
  rw [after_traceRec]
  funext y
  obtain ⟨b, p, q, rfl⟩ : ∃ (b : Fin 32) (p q : Fin 128), y = ix3 b p q := ⟨y 0, y 1, y 2, eq_ix3 y⟩
  rw [View.read_apply]
  show traceRec m c t (ix3 b p q) = cubeRec m c (((cfg0.win 12).blk t).view.emb (ix3 b p q))
  rw [traceRec_at]
  obtain ⟨-, -, -, -, -, -, -, -, -, -, -, -, e, -⟩ := index_facts t
  have i0 : win0_12.index t 0 = 0 := congrFun e 0
  have i1 : win0_12.index t 1 = t.val / 8 := congrFun e 1
  have i2 : win0_12.index t 2 = t.val % 8 := congrFun e 2
  have h0 : ((cfg0.win 12).blk t).view.emb (ix3 b p q) 0 = b :=
    Fin.ext (by show win0_12.index t 0 * 32 + 1 * b.val = b.val; omega)
  have h1 : ((cfg0.win 12).blk t).view.emb (ix3 b p q) 1 = rowOf t p :=
    Fin.ext (by show win0_12.index t 1 * 128 + 1 * p.val = 128 * (t.val / 8) + p.val; omega)
  have h2 : ((cfg0.win 12).blk t).view.emb (ix3 b p q) 2 = colOf t q :=
    Fin.ext (by show win0_12.index t 2 * 128 + 1 * q.val = 128 * (t.val % 8) + q.val; omega)
  show _ = trRec m c (((cfg0.win 12).blk t).view.emb (ix3 b p q) 0) (((cfg0.win 12).blk t).view.emb (ix3 b p q) 1)
    (((cfg0.win 12).blk t).view.emb (ix3 b p q) 2)
  rw [h0, h1, h2]

private theorem mem_blkRec (t : Fin cfg0.N) (i : S32x1024x1024.Idx) :
    i ∈ ((cfg0.win 12).blk t).view.set ↔ ∀ a : Fin 3, win0_12.index t a * S32x128x128.size a ≤ (i a).val
      ∧ (i a).val < win0_12.index t a * S32x128x128.size a + S32x128x128.size a := by
  show i ∈ ((View.whole main_v0_2).slice (win0_12.rect t)).set ↔ _
  rw [View.set_slice_whole, Rect.mem_set_unit]
  exact Iff.rfl

private theorem coverRec (i : S32x1024x1024.Idx) :
    ∃ t : Fin cfg0.N, (cfg0.win 12).flush t = true ∧ i ∈ ((cfg0.win 12).blk t).view.set := by
  have hi0 : (i 0).val < 32 := (i 0).isLt
  have hi1 : (i 1).val < 1024 := (i 1).isLt
  have hi2 : (i 2).val < 1024 := (i 2).isLt
  have hN : cfg0.N = 64 := N_0
  obtain ⟨t, tv⟩ : ∃ t : Fin cfg0.N, t.val = 8 * ((i 1).val / 128) + (i 2).val / 128 :=
    ⟨⟨8 * ((i 1).val / 128) + (i 2).val / 128, by rw [hN]; omega⟩, rfl⟩
  refine ⟨t, flush0_12 t, ?_⟩
  rw [mem_blkRec]
  obtain ⟨-, -, -, -, -, -, -, -, -, -, -, -, e, -⟩ := index_facts t
  have i0 : win0_12.index t 0 = 0 := congrFun e 0
  have i1 : win0_12.index t 1 = t.val / 8 := congrFun e 1
  have i2 : win0_12.index t 2 = t.val % 8 := congrFun e 2
  intro a
  match a with
  | ⟨0, _⟩ => show win0_12.index t 0 * 32 ≤ (i 0).val ∧ (i 0).val < win0_12.index t 0 * 32 + 32; omega
  | ⟨1, _⟩ => show win0_12.index t 1 * 128 ≤ (i 1).val ∧ (i 1).val < win0_12.index t 1 * 128 + 128; omega
  | ⟨2, _⟩ => show win0_12.index t 2 * 128 ≤ (i 2).val ∧ (i 2).val < win0_12.index t 2 * 128 + 128; omega

theorem final_traceRec (c : Dev nD) (b : Fin 32) (p q : Fin 1024) :
    ((dats (F := Ideal) m 0 c).arrAt 12 cfg0.N : SynSpec.Cube) (ix3 b p q) = trRec m c b p q := by
  have h := (dats (F := Ideal) m 0 c).arrAt_eq_of_cover 12 (cubeRec m c) (fun t _ => flushedRec_eq m c t) coverRec
  exact congrFun h (ix3 b p q)

end Cert.KernelIdeal.Syn

end
-- ==== Proof.KI.Accumulate.lean ====
/-
  The accumulator after point t, at a coordinate, is the cell's eight-step accumulation up to step t % 8 of the
  two trace rows that end on the coordinate's neuron: by induction on the step, the row block t / 8 being the same
  at every step of a row block's eight points. After the last step it is the drive.
-/
import proofs.«125167_j59399397704147_1_alg».proof.Proof.KI.PointValues

set_option maxRecDepth 16384

noncomputable section

namespace Cert.KernelIdeal.Syn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ)

/-- The accumulation up to a step depends on the step only through its number. -/
private theorem accUpTo_congr (f g : Fin 1024 → EReal) {k k' : ℕ} (e : k = k') (h : k < 8) (h' : k' < 8) :
    SynSpec.accUpTo f g k h = SynSpec.accUpTo f g k' h' := by
  subst e; rfl

/-- The sum over the 128 columns of point t's reduction step is that step's lane sum. -/
private theorem sum_col (φ : Fin 1024 → EReal) (t : Fin cfg0.N) :
    ∑ q : Fin 128, φ (colOf t q) = SynSpec.laneSum φ ⟨t.val % 8, Nat.mod_lt _ (by decide)⟩ := rfl

/-- One update at a coordinate: what the accumulator held, plus the step's two lane sums of the two trace rows
    that end on the coordinate's neuron. -/
private theorem step_at (c : Dev nD) (t : Fin cfg0.N) (v : Vec Ideal S32x128 .f32) (b : Fin 32) (p : Fin 128) :
    k0_pay1 (F := Ideal) (laneIn m c t) (traceRec m c t) v (ix2 b p)
      = v (ix2 b p)
        + (SynSpec.laneSum (fun q => trIn m c b (rowOf t p) q) ⟨t.val % 8, Nat.mod_lt _ (by decide)⟩
          + SynSpec.laneSum (fun q => trRec m c b (rowOf t p) q) ⟨t.val % 8, Nat.mod_lt _ (by decide)⟩) := by
  rw [accStep_at, laneIn_at, Finset.sum_congr rfl (fun q _ => traceRec_at m c t b p q)]
  rfl

/-- The point before a later step is in the same row block. -/
private theorem rowOf_pred (n : ℕ) (hn : n + 1 < cfg0.N) (h : ¬(n + 1) % 8 = 0) (p : Fin 128) :
    rowOf ⟨n, Nat.lt_of_succ_lt hn⟩ p = rowOf ⟨n + 1, hn⟩ p := by
  apply Fin.ext
  show 128 * (n / 8) + p.val = 128 * ((n + 1) / 8) + p.val
  omega

/-- The accumulator at position n, at a coordinate: by induction on n. -/
private theorem accAt_at_aux (c : Dev nD) (b : Fin 32) (p : Fin 128) : ∀ (n : ℕ) (hn : n < cfg0.N),
    accAt (F := Ideal) m c n hn (ix2 b p)
      = SynSpec.accUpTo (fun q => trIn m c b (rowOf ⟨n, hn⟩ p) q) (fun q => trRec m c b (rowOf ⟨n, hn⟩ p) q)
          (n % 8) (Nat.mod_lt _ (by decide)) := by
  intro n
  induction n with
  | zero =>
    intro hn
    have e := accAt_first m c ⟨0, hn⟩ rfl
    rw [show accAt m c 0 hn = accAt m c (⟨0, hn⟩ : Fin cfg0.N).val (⟨0, hn⟩ : Fin cfg0.N).isLt from rfl, e,
      step_at, accZero_at]
    rfl
  | succ n ih =>
    intro hn
    by_cases h : (n + 1) % 8 = 0
    · have e := accAt_first m c ⟨n + 1, hn⟩ h
      rw [show accAt m c (n + 1) hn = accAt m c (⟨n + 1, hn⟩ : Fin cfg0.N).val (⟨n + 1, hn⟩ : Fin cfg0.N).isLt from rfl, e,
        step_at, accZero_at]
      rw [accUpTo_congr _ _ h (Nat.mod_lt _ (by decide)) (by decide), SynSpec.accUpTo_zero]
      have e0 : (⟨(n + 1) % 8, Nat.mod_lt _ (by decide)⟩ : Fin 8) = ⟨0, by decide⟩ := Fin.ext h
      show (0 : EReal) + _ = _
      rw [e0]
    · have e := accAt_later m c ⟨n + 1, hn⟩ h
      have hk : (n + 1) % 8 = n % 8 + 1 := by omega
      have hk' : n % 8 + 1 < 8 := by omega
      rw [show accAt m c (n + 1) hn = accAt m c (⟨n + 1, hn⟩ : Fin cfg0.N).val (⟨n + 1, hn⟩ : Fin cfg0.N).isLt from rfl, e,
        step_at]
      rw [show accAt m c ((⟨n + 1, hn⟩ : Fin cfg0.N).val - 1) (Nat.lt_of_le_of_lt (Nat.sub_le _ _) (⟨n + 1, hn⟩ : Fin cfg0.N).isLt)
            = accAt m c n (Nat.lt_of_succ_lt hn) from rfl, ih (Nat.lt_of_succ_lt hn), rowOf_pred n hn h p]
      rw [accUpTo_congr _ _ hk (Nat.mod_lt _ (by decide)) hk', SynSpec.accUpTo_succ]
      have e1 : (⟨(n + 1) % 8, Nat.mod_lt _ (by decide)⟩ : Fin 8) = ⟨n % 8 + 1, hk'⟩ := Fin.ext hk
      show _ + (SynSpec.laneSum _ (⟨(n + 1) % 8, Nat.mod_lt _ (by decide)⟩ : Fin 8)
        + SynSpec.laneSum _ (⟨(n + 1) % 8, Nat.mod_lt _ (by decide)⟩ : Fin 8)) = _
      rw [e1]

theorem accAt_at (c : Dev nD) (t : Fin cfg0.N) (b : Fin 32) (p : Fin 128) :
    accAt (F := Ideal) m c t.val t.isLt (ix2 b p)
      = SynSpec.accUpTo (fun q => trIn m c b (rowOf t p) q) (fun q => trRec m c b (rowOf t p) q) (t.val % 8) (Nat.mod_lt _ (by decide)) :=
  accAt_at_aux m c b p t.val t.isLt

theorem accAt_last (c : Dev nD) (t : Fin cfg0.N) (h : t.val % 8 = 7) (b : Fin 32) (p : Fin 128) :
    accAt (F := Ideal) m c t.val t.isLt (ix2 b p)
      = SynSpec.drive (fun q => trIn m c b (rowOf t p) q) (fun q => trRec m c b (rowOf t p) q) := by
  rw [accAt_at m c t b p, accUpTo_congr _ _ h (Nat.mod_lt _ (by decide)) (by decide)]
  exact SynSpec.accUpTo_last _ _

end Cert.KernelIdeal.Syn

end
-- ==== Proof.KI.FinalRows.lean ====
/-
  The refractory-current and spike arrays after the run: a row block's buffer is written back once, after its
  eighth step, when the accumulator holds the drive; the 8 row blocks tile each array.
-/
import proofs.«125167_j59399397704147_1_alg».proof.Proof.KI.Accumulate

set_option maxRecDepth 16384

noncomputable section

namespace Cert.KernelIdeal.Syn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ)

/-! ## What a flushing point writes back

A point with reduction step 7 writes its row block's buffer back to columns 128 (t / 8), ..., 128 (t / 8) + 127 of
the array, all 32 batch rows; coordinate (b, p) of the block lands on (b, 128 (t / 8) + p). -/

/-- The refractory current over the whole array's indices. -/
private abbrev G13 (c : Dev nD) : SynSpec.Rows :=
  fun j => refr m c ⟨(j 0).val, (j 0).isLt⟩ ⟨(j 1).val, (j 1).isLt⟩

/-- The cell's spike of neuron p in batch row b: the sign test of the whole drive against the refractory current. -/
private abbrev spikeAt (c : Dev nD) (b : Fin 32) (p : Fin 1024) : EReal :=
  SynSpec.spike (SynSpec.drive (fun q => trIn m c b p q) (fun q => trRec m c b p q)) (refr m c b p)

/-- The spike over the whole array's indices. -/
private abbrev G10 (c : Dev nD) : SynSpec.Rows :=
  fun j => spikeAt m c ⟨(j 0).val, (j 0).isLt⟩ ⟨(j 1).val, (j 1).isLt⟩

/-- What a flushing point writes back to the refractory-current array is its block of the cell's refractory
    current. -/
private theorem flushed13_eq (c : Dev nD) (t : Fin cfg0.N) (hf : (cfg0.win 13).flush t = true) :
    (dats (F := Ideal) m 0 c).flushed 13 t = ((cfg0.win 13).blk t).view.read (Elt Ideal) (G13 m c) := by
  show (cfg0.win 13).cut (grid0.coords t) ((dats m 0 c).after 13 t) = _
  rw [after_ir]
  funext y
  obtain ⟨b, p, rfl⟩ : ∃ (b : Fin 32) (p : Fin 128), y = ix2 b p := ⟨y 0, y 1, eq_ix2 y⟩
  rw [View.read_apply]
  show irAt m c t (ix2 b p) = G13 m c (((cfg0.win 13).blk t).view.emb (ix2 b p))
  rw [irAt_at]
  obtain ⟨-, -, -, -, -, -, -, -, -, -, -, -, -, e13⟩ := index_facts t
  have e0 : (((cfg0.win 13).blk t).view.emb (ix2 b p) 0).val = b.val := by
    show win0_13.index t (0 : Fin 2) * 32 + 1 * b.val = b.val
    rw [e13]; show 0 * 32 + 1 * b.val = b.val; omega
  have e1 : (((cfg0.win 13).blk t).view.emb (ix2 b p) 1).val = (rowOf t p).val := by
    show win0_13.index t (1 : Fin 2) * 128 + 1 * p.val = _
    rw [e13, rowOf_val]; show (t.val / 8) * 128 + 1 * p.val = _; omega
  exact congrArg₂ (refr m c) (Fin.ext e0.symm) (Fin.ext e1.symm)

/-- What a flushing point writes back to the spike array is its block of the cell's spike: at step 7 the
    accumulator holds the whole drive. -/
private theorem flushed10_eq (c : Dev nD) (t : Fin cfg0.N) (hf : (cfg0.win 10).flush t = true) :
    (dats (F := Ideal) m 0 c).flushed 10 t = ((cfg0.win 10).blk t).view.read (Elt Ideal) (G10 m c) := by
  have h7 : t.val % 8 = 7 := (flush0_10 t).mp hf
  show (cfg0.win 10).cut (grid0.coords t) ((dats m 0 c).after 10 t) = _
  rw [after_z]
  funext y
  obtain ⟨b, p, rfl⟩ : ∃ (b : Fin 32) (p : Fin 128), y = ix2 b p := ⟨y 0, y 1, eq_ix2 y⟩
  rw [View.read_apply]
  show zAt m c t (ix2 b p) = G10 m c (((cfg0.win 10).blk t).view.emb (ix2 b p))
  rw [zAt_at, accAt_last m c t h7]
  obtain ⟨-, -, -, -, -, -, -, -, -, -, e10, -, -, -⟩ := index_facts t
  have e0 : (((cfg0.win 10).blk t).view.emb (ix2 b p) 0).val = b.val := by
    show win0_10.index t (0 : Fin 2) * 32 + 1 * b.val = b.val
    rw [e10]; show 0 * 32 + 1 * b.val = b.val; omega
  have e1 : (((cfg0.win 10).blk t).view.emb (ix2 b p) 1).val = (rowOf t p).val := by
    show win0_10.index t (1 : Fin 2) * 128 + 1 * p.val = _
    rw [e10, rowOf_val]; show (t.val / 8) * 128 + 1 * p.val = _; omega
  exact congrArg₂ (spikeAt m c) (Fin.ext e0.symm) (Fin.ext e1.symm)

/-! ## The row blocks tile the arrays -/

/-- An index of the refractory-current array is in point t's block iff each coordinate is in the block's range. -/
private theorem mem_blk13 (t : Fin cfg0.N) (i : S32x1024.Idx) :
    i ∈ ((cfg0.win 13).blk t).view.set ↔ ∀ a : Fin 2, win0_13.index t a * S32x128.size a ≤ (i a).val ∧ (i a).val < win0_13.index t a * S32x128.size a + S32x128.size a := by
  show i ∈ ((View.whole main_v0_3).slice (win0_13.rect t)).set ↔ _
  rw [View.set_slice_whole, Rect.mem_set_unit]
  exact Iff.rfl

/-- The same for the spike array. -/
private theorem mem_blk10 (t : Fin cfg0.N) (i : S32x1024.Idx) :
    i ∈ ((cfg0.win 10).blk t).view.set ↔ ∀ a : Fin 2, win0_10.index t a * S32x128.size a ≤ (i a).val ∧ (i a).val < win0_10.index t a * S32x128.size a + S32x128.size a := by
  show i ∈ ((View.whole main_v0_0).slice (win0_10.rect t)).set ↔ _
  rw [View.set_slice_whole, Rect.mem_set_unit]
  exact Iff.rfl

/-- The last point of row block r: position 8 r + 7. -/
private def lastOf (r : Fin 8) : Fin cfg0.N := ⟨8 * r.val + 7, by have := r.isLt; have h : cfg0.N = 64 := N_0; omega⟩

private theorem lastOf_mod (r : Fin 8) : (lastOf r).val % 8 = 7 := by
  show (8 * r.val + 7) % 8 = 7; omega
private theorem lastOf_div (r : Fin 8) : (lastOf r).val / 8 = r.val := by
  show (8 * r.val + 7) / 8 = r.val; omega

/-- Every index of the refractory-current array is in the block of the last point of its column's row block. -/
private theorem cover13 (i : S32x1024.Idx) :
    ∃ t : Fin cfg0.N, (cfg0.win 13).flush t = true ∧ i ∈ ((cfg0.win 13).blk t).view.set := by
  have hi0 : (i 0).val < 32 := (i 0).isLt
  have hi1 : (i 1).val < 1024 := (i 1).isLt
  let r : Fin 8 := ⟨(i 1).val / 128, by omega⟩
  have hd : (lastOf r).val / 8 = (i 1).val / 128 := lastOf_div r
  refine ⟨lastOf r, (flush0_13 _).mpr (lastOf_mod r), ?_⟩
  rw [mem_blk13]
  obtain ⟨-, -, -, -, -, -, -, -, -, -, -, -, -, e13⟩ := index_facts (lastOf r)
  intro a
  match a with
  | ⟨0, _⟩ =>
    show win0_13.index (lastOf r) (0 : Fin 2) * 32 ≤ (i 0).val ∧ (i 0).val < win0_13.index (lastOf r) (0 : Fin 2) * 32 + 32
    rw [e13]; show 0 * 32 ≤ (i 0).val ∧ (i 0).val < 0 * 32 + 32; omega
  | ⟨1, _⟩ =>
    show win0_13.index (lastOf r) (1 : Fin 2) * 128 ≤ (i 1).val ∧ (i 1).val < win0_13.index (lastOf r) (1 : Fin 2) * 128 + 128
    rw [e13]; show (lastOf r).val / 8 * 128 ≤ (i 1).val ∧ (i 1).val < (lastOf r).val / 8 * 128 + 128; omega

/-- The same for the spike array. -/
private theorem cover10 (i : S32x1024.Idx) :
    ∃ t : Fin cfg0.N, (cfg0.win 10).flush t = true ∧ i ∈ ((cfg0.win 10).blk t).view.set := by
  have hi0 : (i 0).val < 32 := (i 0).isLt
  have hi1 : (i 1).val < 1024 := (i 1).isLt
  let r : Fin 8 := ⟨(i 1).val / 128, by omega⟩
  have hd : (lastOf r).val / 8 = (i 1).val / 128 := lastOf_div r
  refine ⟨lastOf r, (flush0_10 _).mpr (lastOf_mod r), ?_⟩
  rw [mem_blk10]
  obtain ⟨-, -, -, -, -, -, -, -, -, -, e10, -, -, -⟩ := index_facts (lastOf r)
  intro a
  match a with
  | ⟨0, _⟩ =>
    show win0_10.index (lastOf r) (0 : Fin 2) * 32 ≤ (i 0).val ∧ (i 0).val < win0_10.index (lastOf r) (0 : Fin 2) * 32 + 32
    rw [e10]; show 0 * 32 ≤ (i 0).val ∧ (i 0).val < 0 * 32 + 32; omega
  | ⟨1, _⟩ =>
    show win0_10.index (lastOf r) (1 : Fin 2) * 128 ≤ (i 1).val ∧ (i 1).val < win0_10.index (lastOf r) (1 : Fin 2) * 128 + 128
    rw [e10]; show (lastOf r).val / 8 * 128 ≤ (i 1).val ∧ (i 1).val < (lastOf r).val / 8 * 128 + 128; omega

/-! ## The two arrays after the run -/

theorem final_ir (c : Dev nD) (b : Fin 32) (p : Fin 1024) :
    ((dats (F := Ideal) m 0 c).arrAt 13 cfg0.N : SynSpec.Rows) (ix2 b p) = refr m c b p := by
  have h := (dats (F := Ideal) m 0 c).arrAt_eq_of_cover 13 (G13 m c) (fun t hf => flushed13_eq m c t hf) cover13
  exact congrFun h (ix2 b p)
theorem final_z (c : Dev nD) (b : Fin 32) (p : Fin 1024) :
    ((dats (F := Ideal) m 0 c).arrAt 10 cfg0.N : SynSpec.Rows) (ix2 b p)
      = SynSpec.spike (SynSpec.drive (fun q => trIn m c b p q) (fun q => trRec m c b p q)) (refr m c b p) := by
  have h := (dats (F := Ideal) m 0 c).arrAt_eq_of_cover 10 (G10 m c) (fun t hf => flushed10_eq m c t hf) cover10
  exact congrFun h (ix2 b p)

end Cert.KernelIdeal.Syn

end
-- ==== Proof.RefRead.lean ====
/-
  The reference program's run and its read-at-an-index lemmas, brought in for the modules that compare the
  reference's four results with the kernel's.
-/
import proofs.«125167_j59399397704147_1_alg».proof.Proof.Gen.ReferenceIdeal.Run
import proofs.«125167_j59399397704147_1_alg».proof.Proof.Gen.ReferenceIdeal.Read
-- ==== Proof.RefValue.lean ====
/-
  The reference program's four results, read at an index, are the synapse cell's four quantities: the two
  updated trace arrays, the refractory current, and the spike of the drive (the two whole row sums, each from
  the host's sum started at zero) against the refractory current and the threshold.
-/
import proofs.«125167_j59399397704147_1_alg».proof.Proof.RefRead
import proofs.«125167_j59399397704147_1_alg».proof.Proof.Spec
import Idealize.ShloMosaic.Lib.ValueIdx
import Idealize.ShloMosaic.PureOps.Ideal.Laws

noncomputable section

open scoped BigOperators

namespace Cert.RefValue

open Cert.ReferenceIdeal Cert.ReferenceIdeal.Read Cert.SynSpec
open Idealize.ShloMosaic Idealize.ShloMosaic.ValueIdx

/-! ## The broadcasts' index maps at an index given by coordinates

Each operand of the two trace arrays is a table broadcast along the axes it does not have; read at (b, p, q) the
composed index maps pick (p, q) of a synapse table and (b, q) of a spike array. -/

/-- A synapse table broadcast over the batch axis (first path, first table) is read at (p, q). -/
private theorem idx_v0_v1 (b : Fin 32) (p q : Fin 1024) :
    idx_main_v0 (idx_main_v1 (ix3 b p q)) = ix2 p q :=
  funext fun a => Fin.ext (by match a with | ⟨0, _⟩ => rfl | ⟨1, _⟩ => rfl)

/-- A synapse table broadcast over the batch axis (first path, second table) is read at (p, q). -/
private theorem idx_v3_v5 (b : Fin 32) (p q : Fin 1024) :
    idx_main_v3 (idx_main_v5 (ix3 b p q)) = ix2 p q :=
  funext fun a => Fin.ext (by match a with | ⟨0, _⟩ => rfl | ⟨1, _⟩ => rfl)

/-- A spike array broadcast over the output-neuron axis (first path) is read at (b, q). -/
private theorem idx_v4_v6 (b : Fin 32) (p q : Fin 1024) :
    idx_main_v4 (idx_main_v6 (ix3 b p q)) = ix2 b q :=
  funext fun a => Fin.ext (by match a with | ⟨0, _⟩ => rfl | ⟨1, _⟩ => rfl)

/-- The reference's input-path trace array at (b, p, q). -/
theorem ref_trace_in (x0 : Rows) (x2 : Cube) (x5 x6 : Mat) (b : Fin 32) (p q : Fin 1024) :
    val_main_v8 (F := Ideal) x0 x2 x5 x6 (ix3 b p q) = trace x6 x5 x2 x0 b p q := by
  rw [val_main_v8_apply, val_main_v2_apply, val_main_v1_apply, val_main_v0_apply, val_main_v7_apply,
    val_main_v5_apply, val_main_v3_apply, val_main_v6_apply, val_main_v4_apply,
    idx_v0_v1, idx_v3_v5, idx_v4_v6, Ideal.addf_def, Ideal.mulf_def, Ideal.mulf_def]
  rfl

/-- A synapse table broadcast over the batch axis (second path, first table) is read at (p, q). -/
private theorem idx_v10_v11 (b : Fin 32) (p q : Fin 1024) :
    idx_main_v10 (idx_main_v11 (ix3 b p q)) = ix2 p q :=
  funext fun a => Fin.ext (by match a with | ⟨0, _⟩ => rfl | ⟨1, _⟩ => rfl)

/-- A synapse table broadcast over the batch axis (second path, second table) is read at (p, q). -/
private theorem idx_v13_v15 (b : Fin 32) (p q : Fin 1024) :
    idx_main_v13 (idx_main_v15 (ix3 b p q)) = ix2 p q :=
  funext fun a => Fin.ext (by match a with | ⟨0, _⟩ => rfl | ⟨1, _⟩ => rfl)

/-- A spike array broadcast over the output-neuron axis (second path) is read at (b, q). -/
private theorem idx_v14_v16 (b : Fin 32) (p q : Fin 1024) :
    idx_main_v14 (idx_main_v16 (ix3 b p q)) = ix2 b q :=
  funext fun a => Fin.ext (by match a with | ⟨0, _⟩ => rfl | ⟨1, _⟩ => rfl)

/-- The reference's recurrent-path trace array at (b, p, q). -/
theorem ref_trace_rec (x1 : Rows) (x3 : Cube) (x7 x8 : Mat) (b : Fin 32) (p q : Fin 1024) :
    val_main_v18 (F := Ideal) x1 x3 x7 x8 (ix3 b p q) = trace x8 x7 x3 x1 b p q := by
  rw [val_main_v18_apply, val_main_v12_apply, val_main_v11_apply, val_main_v10_apply, val_main_v17_apply,
    val_main_v15_apply, val_main_v13_apply, val_main_v16_apply, val_main_v14_apply,
    idx_v10_v11, idx_v13_v15, idx_v14_v16, Ideal.addf_def, Ideal.mulf_def, Ideal.mulf_def]
  rfl

/-- The reference's refractory current at (b, p): the two scalar constants are broadcast, so each is read
    as itself at every index. -/
theorem ref_refrac (x1 x4 : Rows) (b : Fin 32) (p : Fin 1024) :
    val_main_v24 (F := Ideal) x1 x4 (ix2 b p) = refrac x4 x1 b p := by
  rw [val_main_v24_apply, val_main_v21_apply, val_main_v20_apply, val_main_cst_1_apply, val_main_v23_apply,
    val_main_v22_apply, val_main_cst_2_apply, Ideal.addf_def, Ideal.mulf_def, Ideal.mulf_def,
    Ideal.ofBits_def, Ideal.ofBits_def]
  rfl

/-! ## The two row sums

The host's sum over the last axis, started at the zero constant, read at (b, p), is the sum over q of the summed
array at (b, p, q); the zero it starts from is the extended reals' zero and drops out. -/

/-- The first sum's index map at (b, p) and column q is (b, p, q). -/
private theorem idx_v9 (b : Fin 32) (p q : Fin 1024) : idx_main_v9 (ix2 b p) q = ix3 b p q :=
  funext fun a => Fin.ext (by match a with | ⟨0, _⟩ => rfl | ⟨1, _⟩ => rfl | ⟨2, _⟩ => rfl)

/-- The second sum's index map at (b, p) and column q is (b, p, q). -/
private theorem idx_v19 (b : Fin 32) (p q : Fin 1024) : idx_main_v19 (ix2 b p) q = ix3 b p q :=
  funext fun a => Fin.ext (by match a with | ⟨0, _⟩ => rfl | ⟨1, _⟩ => rfl | ⟨2, _⟩ => rfl)

/-- The input-path row sum at (b, p) is the sum over q of the input-path traces. -/
private theorem ref_sum_in (x0 : Rows) (x2 : Cube) (x5 x6 : Mat) (b : Fin 32) (p : Fin 1024) :
    val_main_v9 (F := Ideal) x0 x2 x5 x6 (ix2 b p) = ∑ q : Fin 1024, trace x6 x5 x2 x0 b p q := by
  rw [val_main_v9_apply, val_main_cst_apply, Ideal.ofBits_def, Ideal.ofBits_zero_f32, zero_add]
  exact Finset.sum_congr rfl (fun q _ => by rw [idx_v9, ref_trace_in])

/-- The recurrent-path row sum at (b, p) is the sum over q of the recurrent-path traces. -/
private theorem ref_sum_rec (x1 : Rows) (x3 : Cube) (x7 x8 : Mat) (b : Fin 32) (p : Fin 1024) :
    val_main_v19 (F := Ideal) x1 x3 x7 x8 (ix2 b p) = ∑ q : Fin 1024, trace x8 x7 x3 x1 b p q := by
  rw [val_main_v19_apply, val_main_cst_0_apply, Ideal.ofBits_def, Ideal.ofBits_zero_f32, zero_add]
  exact Finset.sum_congr rfl (fun q _ => by rw [idx_v19, ref_trace_rec])

/-- The reference's spike at (b, p). -/
theorem ref_spike (x0 x1 : Rows) (x2 x3 : Cube) (x4 : Rows) (x5 x6 x7 x8 : Mat) (b : Fin 32) (p : Fin 1024) :
    val_main_v31 (F := Ideal) x0 x1 x2 x3 x4 x5 x6 x7 x8 (ix2 b p)
      = spike (drive (fun q => trace x6 x5 x2 x0 b p q) (fun q => trace x8 x7 x3 x1 b p q)) (refrac x4 x1 b p) := by
  rw [val_main_v31_apply, val_main_v30_apply, val_main_v28_apply, val_main_v26_apply, val_main_v25_apply,
    ref_sum_in, ref_sum_rec, ref_refrac, val_main_v27_apply, val_main_cst_3_apply, val_main_v29_apply,
    val_main_cst_4_apply, Ideal.subf_def, Ideal.subf_def, Ideal.addf_def, Ideal.ofBits_def, Ideal.ofBits_def]
  rfl

end Cert.RefValue

end
-- ==== Proof.Claims.lean ====
/-
  The certificate's claims about the synapse kernel against its reference.

  The kernel's program and its idealization run to the end, fault nowhere and leave their arguments unchanged
  (the run through the pipeline); so does the reference (its run, read at the arguments). The idealization
  rewrote nothing, so there is nothing to preserve. At the ideal instance the two programs end with equal
  results: the two trace arrays are the cell's traces on both sides; the refractory currents are equal
  operation by operation; and the kernel's eight-step accumulator holds, after the last step, the reference's
  sum of the two whole row sums, so the two spikes are the same sign test.
-/
import proofs.«125167_j59399397704147_1_alg».proof.Defs
import proofs.«125167_j59399397704147_1_alg».proof.Proof.KI.Frame
import proofs.«125167_j59399397704147_1_alg».proof.Proof.KI.FinalTraces
import proofs.«125167_j59399397704147_1_alg».proof.Proof.KI.FinalRows
import proofs.«125167_j59399397704147_1_alg».proof.Proof.RefValue
import proofs.«125167_j59399397704147_1_alg».proof.Proof.Gen.Pre_finite_inputs
import proofs.«125167_j59399397704147_1_alg».proof.Proof.Gen.ReferenceIdeal

noncomputable section

namespace Cert.Proof.SynClaims

open Idealize.ShloMosaic Idealize.ShloMosaic.TcCoe Idealize.SL.Sem Idealize.ShloMosaic.ValueIdx

theorem frame_ki : Cert.frame_KernelIdeal := fun m ρ _ => Cert.KernelIdeal.Syn.frame (F := Ideal) m ρ

theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-! ## The reference's four results are the kernel's four final arrays

Read at coordinates, the reference's stage and the kernel's final array are the same quantity of the cell, of the
same argument arrays: the spike, the two trace arrays, the refractory current. -/

section Results

open Cert.KernelIdeal Cert.KernelIdeal.Syn Cert.ReferenceIdeal.Read

variable (m : (ℓ : Loc Cert.KernelIdeal.nD Cert.KernelIdeal.τ Cert.KernelIdeal.sig) → Buf (Elt Ideal) ℓ)
  (c : Dev Cert.KernelIdeal.nD)

/-- The spikes. -/
private theorem spike_eq :
    val_main_v31 (F := Ideal) (V m c main_arg0) (V m c main_arg1) (V m c main_arg2) (V m c main_arg3) (V m c main_arg4)
        (V m c main_arg5) (V m c main_arg6) (V m c main_arg7) (V m c main_arg8)
      = (dats (F := Ideal) m 0 c).arrAt 10 cfg0.N := by
  funext j
  obtain ⟨b, p, rfl⟩ : ∃ (b : Fin 32) (p : Fin 1024), j = ix2 b p := ⟨j 0, j 1, eq_ix2 j⟩
  exact (Cert.RefValue.ref_spike _ _ _ _ _ _ _ _ _ b p).trans (final_z m c b p).symm

/-- The input-path trace arrays. -/
private theorem traceIn_eq :
    val_main_v8 (F := Ideal) (V m c main_arg0) (V m c main_arg2) (V m c main_arg5) (V m c main_arg6)
      = (dats (F := Ideal) m 0 c).arrAt 11 cfg0.N := by
  funext j
  obtain ⟨b, p, q, rfl⟩ : ∃ (b : Fin 32) (p q : Fin 1024), j = ix3 b p q := ⟨j 0, j 1, j 2, eq_ix3 j⟩
  exact (Cert.RefValue.ref_trace_in _ _ _ _ b p q).trans (final_traceIn m c b p q).symm

/-- The recurrent-path trace arrays. -/
private theorem traceRec_eq :
    val_main_v18 (F := Ideal) (V m c main_arg1) (V m c main_arg3) (V m c main_arg7) (V m c main_arg8)
      = (dats (F := Ideal) m 0 c).arrAt 12 cfg0.N := by
  funext j
  obtain ⟨b, p, q, rfl⟩ : ∃ (b : Fin 32) (p q : Fin 1024), j = ix3 b p q := ⟨j 0, j 1, j 2, eq_ix3 j⟩
  exact (Cert.RefValue.ref_trace_rec _ _ _ _ b p q).trans (final_traceRec m c b p q).symm

/-- The refractory currents. -/
private theorem refrac_eq :
    val_main_v24 (F := Ideal) (V m c main_arg1) (V m c main_arg4) = (dats (F := Ideal) m 0 c).arrAt 13 cfg0.N := by
  funext j
  obtain ⟨b, p, rfl⟩ : ∃ (b : Fin 32) (p : Fin 1024), j = ix2 b p := ⟨j 0, j 1, eq_ix2 j⟩
  exact (Cert.RefValue.ref_refrac _ _ b p).trans (final_ir m c b p).symm

end Results

theorem algebraic : Cert.algebraic_KernelIdeal_ReferenceIdeal := by
  intro m ρ m' ρ' _ hagree
  refine ⟨fun c => (Cert.KernelIdeal.Syn.dats (F := Ideal) m 0 c).arrAt 10 Cert.KernelIdeal.cfg0.N,
    fun c => (Cert.KernelIdeal.Syn.dats (F := Ideal) m 0 c).arrAt 11 Cert.KernelIdeal.cfg0.N,
    fun c => (Cert.KernelIdeal.Syn.dats (F := Ideal) m 0 c).arrAt 12 Cert.KernelIdeal.cfg0.N,
    fun c => (Cert.KernelIdeal.Syn.dats (F := Ideal) m 0 c).arrAt 13 Cert.KernelIdeal.cfg0.N,
    Cert.KernelIdeal.Syn.run_named (F := Ideal) m ρ, ?_⟩
  refine (θ_run Cert.ReferenceIdeal.defs _ _).mono (fun _ h c =>
      ⟨(h c).1.trans ?_, (h c).2.1.trans ?_, (h c).2.2.1.trans ?_, (h c).2.2.2.1.trans ?_, (h c).2.2.2.2⟩)
    (Cert.ReferenceIdeal.Value.run (F := Ideal) m' ρ')
  · refine (Cert.ReferenceIdeal.Read.val_main_v31_eq _ _ _ _ _ _ _ _ _).trans ?_
    rw [(hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    exact spike_eq m c
  · refine (Cert.ReferenceIdeal.Read.val_main_v8_eq _ _ _ _).trans ?_
    rw [(hagree c).1, (hagree c).2.2.1, (hagree c).2.2.2.2.2.1, (hagree c).2.2.2.2.2.2.1]
    exact traceIn_eq m c
  · refine (Cert.ReferenceIdeal.Read.val_main_v18_eq _ _ _ _).trans ?_
    rw [(hagree c).2.1, (hagree c).2.2.2.1, (hagree c).2.2.2.2.2.2.2.1, (hagree c).2.2.2.2.2.2.2.2]
    exact traceRec_eq m c
  · refine (Cert.ReferenceIdeal.Read.val_main_v24_eq _ _).trans ?_
    rw [(hagree c).2.1, (hagree c).2.2.2.2.1]
    exact refrac_eq m c

end Cert.Proof.SynClaims

end
-- ==== Proof.lean ====
/-
  The synapse kernel against its reference: the certificate.

  The kernel updates, for 32 batch rows, the per-synapse traces of a 1024-neuron recurrent cell's input and
  recurrent paths (trace = decay * trace + weight * presynaptic spike), sums each neuron's traces into its membrane
  drive, decays the refractory current, and emits a spike where drive minus refractory current exceeds the
  threshold. It walks the 1024 x 1024 synapses in an 8 x 8 grid of 128 x 128 tiles, row block by row block, and
  within a row block accumulates the tiles' lane sums over eight steps; the reference forms the whole arrays and
  sums each row at once.

  * Frames. The kernel's program, at the word level and idealized, runs to the end at every one of its 64 points
    without fault and leaves its nine arguments unchanged: the body is run in its three cases (first, middle,
    last step of a row block), the accumulator is carried between points, and the previous-spikes array, read
    through two windows, is held by them in two half shares. The reference's frame is its run.
  * The idealization rewrote nothing.
  * Equivalence at the ideal instance. The trace arrays and the refractory current are the same expressions of
    the same entries on both sides. The kernel's accumulator after the eighth step is zero plus, step by step,
    the two lane sums of the step; the reference's drive is the sum of the two whole row sums; these are equal
    because addition of extended reals is commutative and associative with unit zero, with no appeal to the
    inputs' finiteness. The spikes are then the same sign test; the kernel converts the widened comparison bit as
    a signed integer and the reference the bit as an unsigned one, which agree on a one-bit word.
-/
import proofs.«125167_j59399397704147_1_alg».proof.Defs
import proofs.«125167_j59399397704147_1_alg».proof.Proof.Gen.Kernel
import proofs.«125167_j59399397704147_1_alg».proof.Proof.Gen.KernelIdeal
import proofs.«125167_j59399397704147_1_alg».proof.Proof.Gen.ReferenceIdeal
import proofs.«125167_j59399397704147_1_alg».proof.Proof.Gen.Pre_finite_inputs
import proofs.«125167_j59399397704147_1_alg».proof.Proof.KB.Frame
import proofs.«125167_j59399397704147_1_alg».proof.Proof.Claims

noncomputable section

namespace Cert.Proof

open Idealize.ShloMosaic Idealize.SL.Sem

/-- The word-level program's frame: the run through the pipeline at the bit-exact instance. -/
theorem frame_k : Cert.frame_Kernel := fun m ρ _ => Cert.Kernel.Syn.frame (F := Bits) m ρ

theorem claim : Cert.Claim :=
  ⟨Cert.Kernel.Gen.facts, Cert.KernelIdeal.Gen.facts, Cert.ReferenceIdeal.Gen.facts, Cert.Pre_finite_inputs.Gen.facts,
    frame_k, SynClaims.frame_ki, SynClaims.frame_ri, SynClaims.preserves, SynClaims.algebraic⟩

end Cert.Proof

end
